-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x1024x256 : Shape := ⟨3, ![256, 1024, 256]⟩
abbrev S256 : Shape := ⟨1, ![256]⟩
abbrev S1024x256x256 : Shape := ⟨3, ![1024, 256, 256]⟩
abbrev S1024x1x256 : Shape := ⟨3, ![1024, 1, 256]⟩
abbrev S_ : Shape := ⟨0, ![]⟩

class Facts : Prop where
  bcast_S_S256x1024x256 : S_.BroadcastsInDim S256x1024x256 (![] : Fin 0 → Fin S256x1024x256.rank)
  reducesTo_S256x1024x256_S_d0_1_2 : S256x1024x256.ReducesTo [0, 1, 2] S_
  h_S_ : 0 < S_.numel
  bcast_S_S1024x256x256 : S_.BroadcastsInDim S1024x256x256 (![] : Fin 0 → Fin S1024x256x256.rank)
  reducesTo_S1024x256x256_S_d0_1_2 : S1024x256x256.ReducesTo [0, 1, 2] S_
  bcast_S_S1024x1x256 : S_.BroadcastsInDim S1024x1x256 (![] : Fin 0 → Fin S1024x1x256.rank)
  reducesTo_S1024x1x256_S_d0_1_2 : S1024x1x256.ReducesTo [0, 1, 2] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v15 : IVec S256 1) (main_c_5 : IVec S_ 1) : IVec S_ 1 :=
  let main_v16 : IVec S_ 1 := (fun x v => Host.reduce IntOp.andi x v reducesTo_S256_S_d0 h_S_) main_v15 main_c_5
  let main_v17 : IVec S_ 1 := andi main_v13 main_v16
  main_v17

def fn {F : FTy → Type} [FloatOps F] (main_arg0 : FVec F S256x1024x256 .f32) (main_arg1 : IVec S256 32) (main_arg2 : FVec F S1024x256x256 .f32) (main_arg3 : FVec F S1024x1x256 .f32) : IVec S_ 1 :=
  let main_v0 : FVec F S256x1024x256 .f32 := Host.absf main_arg0
  let main_cst : FVec F S_ .f32 := constant S_ .f32 0x7F800000#32
  let main_v1 : FVec F S256x1024x256 .f32 := broadcastInDim S256x1024x256 ![] bcast_S_S256x1024x256 main_cst
  let main_v2 : IVec S256x1024x256 1 := cmpf .olt main_v0 main_v1
  let main_c : IVec S_ 1 := constantI S_ 1 1#1
  let main_v3 : IVec S_ 1 := (fun x v => Host.reduce IntOp.andi x v reducesTo_S256x1024x256_S_d0_1_2 h_S_) main_v2 main_c
  let main_v4 : FVec F S1024x256x256 .f32 := Host.absf main_arg2
  let main_cst_0 : FVec F S_ .f32 := constant S_ .f32 0x7F800000#32
  let main_v5 : FVec F S1024x256x256 .f32 := broadcastInDim S1024x256x256 ![] bcast_S_S1024x256x256 main_cst_0
  let main_v6 : IVec S1024x256x256 1 := cmpf .olt main_v4 main_v5
  let main_c_1 : IVec S_ 1 := constantI S_ 1 1#1
  let main_v7 : IVec S_ 1 := (fun x v => Host.reduce IntOp.andi x v reducesTo_S1024x256x256_S_d0_1_2 h_S_) main_v6 main_c_1
  let main_v8 : IVec S_ 1 := andi main_v3 main_v7
  let main_v9 : FVec F S1024x1x256 .f32 := Host.absf main_arg3
  let main_cst_2 : FVec F S_ .f32 := constant S_ .f32 0x7F800000#32
  let main_v10 : FVec F S1024x1x256 .f32 := broadcastInDim S1024x1x256 ![] bcast_S_S1024x1x256 main_cst_2
  let main_v11 : IVec S1024x1x256 1 := cmpf .olt main_v9 main_v10
  let main_c_3 : IVec S_ 1 := constantI S_ 1 1#1
  let main_v12 : IVec S_ 1 := (fun x v => Host.reduce IntOp.andi x v reducesTo_S1024x1x256_S_d0_1_2 h_S_) main_v11 main_c_3
  let main_v13 : IVec S_ 1 := andi main_v8 main_v12
  let main_c_4 : IVec S_ 32 := constantI S_ 32 0#32
  let main_v14 : IVec S256 32 := broadcastInDim S256 ![] bcast_S_S256 main_c_4
  let main_v15 : IVec S256 1 := cmpi .sge main_arg1 main_v14
  let main_c_5 : IVec S_ 1 := constantI S_ 1 1#1
  fn_part1 (F := F) main_v13 main_v15 main_c_5
-- ==== Kernel.lean ====
abbrev S256x1024x256 : Shape := ⟨3, ![256, 1024, 256]⟩
abbrev S256 : Shape := ⟨1, ![256]⟩
abbrev S1024x256x256 : Shape := ⟨3, ![1024, 256, 256]⟩
abbrev S1024x1x256 : Shape := ⟨3, ![1024, 1, 256]⟩
abbrev S_ : Shape := ⟨0, ![]⟩
abbrev S2x1024x256 : Shape := ⟨3, ![2, 1024, 256]⟩
abbrev S1x256x256 : Shape := ⟨3, ![1, 256, 256]⟩
abbrev S1 : Shape := ⟨1, ![1]⟩
abbrev S1x1x256 : Shape := ⟨3, ![1, 1, 256]⟩
abbrev S1x1024x256 : Shape := ⟨3, ![1, 1024, 256]⟩
abbrev S1024x256 : Shape := ⟨2, ![1024, 256]⟩
abbrev S256x256 : Shape := ⟨2, ![256, 256]⟩
abbrev S1x256 : Shape := ⟨2, ![1, 256]⟩

abbrev nBuf : Space → Nat
  | .hbm => 12
  | .vmem => 12
  | .smem => 1
  | _ => 0

abbrev bufTy : (tb : Table) → Fin (tcTables nBuf tb) → BufTy
  | .hbm, ⟨0, _⟩ => ⟨S256x1024x256, .f32⟩
  | .hbm, ⟨1, _⟩ => ⟨S256, .i32⟩
  | .hbm, ⟨2, _⟩ => ⟨S1024x256x256, .f32⟩
  | .hbm, ⟨3, _⟩ => ⟨S1024x1x256, .f32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S256, .i32⟩
  | .hbm, ⟨8, _⟩ => ⟨S256, .i32⟩
  | .hbm, ⟨9, _⟩ => ⟨S_, .i32⟩
  | .hbm, ⟨10, _⟩ => ⟨S256, .i32⟩
  | .hbm, ⟨11, _⟩ => ⟨S256x1024x256, .f32⟩
  | .local _ .vmem, ⟨0, _⟩ => ⟨S2x1024x256, .f32⟩
  | .local _ .vmem, ⟨1, _⟩ => ⟨S2x1024x256, .f32⟩
  | .local _ .vmem, ⟨2, _⟩ => ⟨S1x256x256, .f32⟩
  | .local _ .vmem, ⟨3, _⟩ => ⟨S1x256x256, .f32⟩
  | .local _ .vmem, ⟨4, _⟩ => ⟨S1x256x256, .f32⟩
  | .local _ .vmem, ⟨5, _⟩ => ⟨S1x256x256, .f32⟩
  | .local _ .vmem, ⟨6, _⟩ => ⟨S1x1x256, .f32⟩
  | .local _ .vmem, ⟨7, _⟩ => ⟨S1x1x256, .f32⟩
  | .local _ .vmem, ⟨8, _⟩ => ⟨S1x1x256, .f32⟩
  | .local _ .vmem, ⟨9, _⟩ => ⟨S1x1x256, .f32⟩
  | .local _ .vmem, ⟨10, _⟩ => ⟨S2x1024x256, .f32⟩
  | .local _ .vmem, ⟨11, _⟩ => ⟨S2x1024x256, .f32⟩
  | .local _ .smem, ⟨0, _⟩ => ⟨S256, .i32⟩
  | _, _ => ⟨S256x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v1 : Ref sig .tc := ⟨.hbm, 11, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![128], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) (c0_i32 : BitVec 32) : Fin 1 → Nat :=
  let c2_i32 : BitVec 32 := 2#32
  let arg0 : BitVec 32 := BitVec.ofNat 32 (i 0).val
  let v0 : BitVec 32 := Scalar.muli c2_i32 arg0
  let v1 : BitVec 32 := Scalar.addi v0 c0_i32
  let c255_i32 : BitVec 32 := 255#32
  let v2 : BitVec 32 := Scalar.minsi v1 c255_i32
  let v3 : Index := Scalar.indexCast v2
  ![v3.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (k0_off1_inb : ∀ i : grid0.Coords, ∀ (r : Fin 2), ∀ a, (k0_off1 i (BitVec.ofNat 32 r.val)) a + S1.size a ≤ S256.size a) (numel1_S1 : S1.numel = 1) (pf : pre0.Contents (Elt F)) (i : grid0.Coords) : Fin 3 → Nat :=
  let arg0 : BitVec 32 := BitVec.ofNat 32 (i 0).val
  let c2_i32 : BitVec 32 := 2#32
  let v0 : BitVec 32 := Scalar.muli c2_i32 arg0
  let c0_i32 : BitVec 32 := 0#32
  let v1 : BitVec 32 := Scalar.addi v0 c0_i32
  let c255_i32 : BitVec 32 := 255#32
  let v2 : BitVec 32 := Scalar.minsi v1 c255_i32
  let v3 : Index := Scalar.indexCast v2
  let v4 : BitVec 32 := pf.at 0 (Rect.unit (s := S256) ![v3.toNat] S1.size (k0_off1_inb i 0)) numel1_S1
  let c0_i32_0 : BitVec 32 := 0#32
  let c0_i32_1 : BitVec 32 := 0#32
  let c0_i32_2 : BitVec 32 := 0#32
  ![v4.toNat, c0_i32_0.toNat, c0_i32_1.toNat]

def cc0_transform_2 (k0_off1_inb : ∀ i : grid0.Coords, ∀ (r : Fin 2), ∀ a, (k0_off1 i (BitVec.ofNat 32 r.val)) a + S1.size a ≤ S256.size a) (numel1_S1 : S1.numel = 1) (pf : pre0.Contents (Elt F)) (i : grid0.Coords) : Fin 3 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c255_i32 : BitVec 32 := 255#32
  let v2 : BitVec 32 := Scalar.minsi v1 c255_i32
  let v3 : Index := Scalar.indexCast v2
  let v4 : BitVec 32 := pf.at 0 (Rect.unit (s := S256) ![v3.toNat] S1.size (k0_off1_inb i 1)) numel1_S1
  let c0_i32 : BitVec 32 := 0#32
  let c0_i32_0 : BitVec 32 := 0#32
  let c0_i32_1 : BitVec 32 := 0#32
  ![v4.toNat, c0_i32.toNat, c0_i32_0.toNat]

def cc0_transform_3 (k0_off1_inb : ∀ i : grid0.Coords, ∀ (r : Fin 2), ∀ a, (k0_off1 i (BitVec.ofNat 32 r.val)) a + S1.size a ≤ S256.size a) (numel1_S1 : S1.numel = 1) (pf : pre0.Contents (Elt F)) (i : grid0.Coords) : Fin 3 → Nat :=
  let arg0 : BitVec 32 := BitVec.ofNat 32 (i 0).val
  let c2_i32 : BitVec 32 := 2#32
  let v0 : BitVec 32 := Scalar.muli c2_i32 arg0
  let c0_i32 : BitVec 32 := 0#32
  let v1 : BitVec 32 := Scalar.addi v0 c0_i32
  let c255_i32 : BitVec 32 := 255#32
  let v2 : BitVec 32 := Scalar.minsi v1 c255_i32
  let v3 : Index := Scalar.indexCast v2
  let v4 : BitVec 32 := pf.at 0 (Rect.unit (s := S256) ![v3.toNat] S1.size (k0_off1_inb i 0)) numel1_S1
  let c0_i32_0 : BitVec 32 := 0#32
  let c0_i32_1 : BitVec 32 := 0#32
  let c0_i32_2 : BitVec 32 := 0#32
  ![v4.toNat, c0_i32_0.toNat, c0_i32_1.toNat]

def cc0_transform_4 (k0_off1_inb : ∀ i : grid0.Coords, ∀ (r : Fin 2), ∀ a, (k0_off1 i (BitVec.ofNat 32 r.val)) a + S1.size a ≤ S256.size a) (numel1_S1 : S1.numel = 1) (pf : pre0.Contents (Elt F)) (i : grid0.Coords) : Fin 3 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c255_i32 : BitVec 32 := 255#32
  let v2 : BitVec 32 := Scalar.minsi v1 c255_i32
  let v3 : Index := Scalar.indexCast v2
  let v4 : BitVec 32 := pf.at 0 (Rect.unit (s := S256) ![v3.toNat] S1.size (k0_off1_inb i 1)) numel1_S1
  let c0_i32 : BitVec 32 := 0#32
  let c0_i32_0 : BitVec 32 := 0#32
  let c0_i32_1 : BitVec 32 := 0#32
  ![v4.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S256 : S_.BroadcastsInDim S256 (![] : Fin 0 → Fin S256.rank)
  numel1_S1 : S1.numel = 1
  inb_S2x1024x256_S1x1024x256_0_0_0 : ∀ a, (![0, 0, 0] : Fin 3 → Nat) a + S1x1024x256.size a ≤ S2x1024x256.size a
  h_S1x1024x256 : 0 < S1x1024x256.numel
  shapeCasts_S1x1024x256_S1024x256 : S1x1024x256.ShapeCasts S1024x256
  bitsLt_bf16_f32 : FTy.bits .bf16 < FTy.bits .f32
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  broadcasts_S1x256_S1024x256 : S1x256.Broadcasts S1024x256
  shapeCasts_S1024x256_S1x1024x256 : S1024x256.ShapeCasts S1x1024x256
  inb_S2x1024x256_S1x1024x256_1_0_0 : ∀ a, (![1, 0, 0] : Fin 3 → Nat) a + S1x1024x256.size a ≤ S2x1024x256.size a
  dot_S1024x256_S256x256_S1024x256_1_0_0_1_n_n_wf : DotDims.WF S1024x256 S256x256 S1024x256 [1] [0] [0] [1] [] []
  hrank0 : 0 < grid0.rank
  k0_off1_inb : ∀ i : grid0.Coords, ∀ (r : Fin 2), ∀ a, (k0_off1 i (BitVec.ofNat 32 r.val)) a + S1.size a ≤ S256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x1024x256.size a ≤ S256x1024x256.size a
  hwx0_0 : ∀ i : grid0.Coords, EltTy.bits .f32 = 32 ∨ (Rect.block (s := S256x1024x256) S2x1024x256.size (cc0_transform_0 i) (hinb0_0 i)).WholeWords (EltTy.packing .f32)
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ {F : FTy → Type} [FloatOps F] (pf : pre0.Contents (Elt F)) (i i' : grid0.Coords), (∀ a, reads0_2 a = true → i a = i' a) → cc0_transform_2 k0_off1_inb numel1_S1 pf i = cc0_transform_2 k0_off1_inb numel1_S1 pf i'
  hstage0_3 : ∀ j, (stage0_3 j).IsWhole
  nbuf0_3 : grid0.bufCount reads0_3 false = 2
  hreads0_3 : ∀ {F : FTy → Type} [FloatOps F] (pf : pre0.Contents (Elt F)) (i i' : grid0.Coords), (∀ a, reads0_3 a = true → i a = i' a) → cc0_transform_3 k0_off1_inb numel1_S1 pf i = cc0_transform_3 k0_off1_inb numel1_S1 pf i'
  hstage0_4 : ∀ j, (stage0_4 j).IsWhole
  nbuf0_4 : grid0.bufCount reads0_4 false = 2
  hreads0_4 : ∀ {F : FTy → Type} [FloatOps F] (pf : pre0.Contents (Elt F)) (i i' : grid0.Coords), (∀ a, reads0_4 a = true → i a = i' a) → cc0_transform_4 k0_off1_inb numel1_S1 pf i = cc0_transform_4 k0_off1_inb numel1_S1 pf i'
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2x1024x256.size a ≤ S256x1024x256.size a
  hwx0_5 : ∀ i : grid0.Coords, EltTy.bits .f32 = 32 ∨ (Rect.block (s := S256x1024x256) S2x1024x256.size (cc0_transform_5 i) (hinb0_5 i)).WholeWords (EltTy.packing .f32)

variable [Facts₀]

def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf

abbrev spec0_0 : Pipeline.WinSpec sig grid0.rank :=
  Pipeline.WinSpec.ofSpec (Memref.whole main_arg0) S2x1024x256.size reads0_0 false false 2 stage0_0 sem0_0 nbuf0_0 hstage0_0

abbrev spec0_1 : Pipeline.WinSpec sig grid0.rank :=
  Pipeline.WinSpec.ofSpec (Memref.whole main_arg2) S1x256x256.size reads0_1 false false 2 stage0_1 sem0_1 nbuf0_1 hstage0_1

abbrev spec0_2 : Pipeline.WinSpec sig grid0.rank :=
  Pipeline.WinSpec.ofSpec (Memref.whole main_arg2) S1x256x256.size reads0_2 false false 2 stage0_2 sem0_2 nbuf0_2 hstage0_2

abbrev spec0_3 : Pipeline.WinSpec sig grid0.rank :=
  Pipeline.WinSpec.ofSpec (Memref.whole main_arg3) S1x1x256.size reads0_3 false false 2 stage0_3 sem0_3 nbuf0_3 hstage0_3

abbrev spec0_4 : Pipeline.WinSpec sig grid0.rank :=
  Pipeline.WinSpec.ofSpec (Memref.whole main_arg3) S1x1x256.size reads0_4 false false 2 stage0_4 sem0_4 nbuf0_4 hstage0_4

abbrev spec0_5 : Pipeline.WinSpec sig grid0.rank :=
  Pipeline.WinSpec.ofSpec (Memref.whole main_v1) S2x1024x256.size reads0_5 true false 2 stage0_5 sem0_5 nbuf0_5 hstage0_5

abbrev spec0 : Fin 6 → Pipeline.WinSpec sig grid0.rank := fun | 0 => spec0_0 | 1 => spec0_1 | 2 => spec0_2 | 3 => spec0_3 | 4 => spec0_4 | 5 => spec0_5 | ⟨_ + 6, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | ⟨_ + 6, h⟩ => absurd h (Nat.not_lt.2 (Nat.le_add_left _ _))
abbrev ix0 (pf : pre0.Contents (Elt F)) : (w : Fin 6) → grid0.Coords → Fin (spec0 w).shape.rank → Nat := fun | 0 => cc0_transform_0 | 1 => cc0_transform_1 k0_off1_inb numel1_S1 pf | 2 => cc0_transform_2 k0_off1_inb numel1_S1 pf | 3 => cc0_transform_3 k0_off1_inb numel1_S1 pf | 4 => cc0_transform_4 k0_off1_inb numel1_S1 pf | 5 => cc0_transform_5 | ⟨_ + 6, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 pf | 2 => hreads0_2 pf | 3 => hreads0_3 pf | 4 => hreads0_4 pf | 5 => hreads0_5 | ⟨_ + 6, h⟩ => absurd h (Nat.not_lt.2 (Nat.le_add_left _ _))
def ok0 (pf : pre0.Contents (Elt F)) : Prop :=
  (∀ i : grid0.Coords, ∃ h : (∀ a, (cc0_transform_1 k0_off1_inb numel1_S1 pf i a + 1) * S1x256x256.size a ≤ S1024x256x256.size a), EltTy.bits .f32 = 32 ∨ (Rect.block (s := S1024x256x256) S1x256x256.size (cc0_transform_1 k0_off1_inb numel1_S1 pf i) h).WholeWords (EltTy.packing .f32)) ∧
  (∀ i : grid0.Coords, ∃ h : (∀ a, (cc0_transform_2 k0_off1_inb numel1_S1 pf i a + 1) * S1x256x256.size a ≤ S1024x256x256.size a), EltTy.bits .f32 = 32 ∨ (Rect.block (s := S1024x256x256) S1x256x256.size (cc0_transform_2 k0_off1_inb numel1_S1 pf i) h).WholeWords (EltTy.packing .f32)) ∧
  (∀ i : grid0.Coords, ∃ h : (∀ a, (cc0_transform_3 k0_off1_inb numel1_S1 pf i a + 1) * S1x1x256.size a ≤ S1024x1x256.size a), EltTy.bits .f32 = 32 ∨ (Rect.block (s := S1024x1x256) S1x1x256.size (cc0_transform_3 k0_off1_inb numel1_S1 pf i) h).WholeWords (EltTy.packing .f32)) ∧
  (∀ i : grid0.Coords, ∃ h : (∀ a, (cc0_transform_4 k0_off1_inb numel1_S1 pf i a + 1) * S1x1x256.size a ≤ S1024x1x256.size a), EltTy.bits .f32 = 32 ∨ (Rect.block (s := S1024x1x256) S1x1x256.size (cc0_transform_4 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => hinb0_0 | 1 => fun i a => (hok.1 i).elim fun h _ => h a | 2 => fun i a => (hok.2.1 i).elim fun h _ => h a | 3 => fun i a => (hok.2.2.1 i).elim fun h _ => h a | 4 => fun i a => (hok.2.2.2 i).elim fun h _ => h a | 5 => hinb0_5 | ⟨_ + 6, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => hwx0_0 | 1 => fun i => (hok.1 i).elim fun _ h => h | 2 => fun i => (hok.2.1 i).elim fun _ h => h | 3 => fun i => (hok.2.2.1 i).elim fun _ h => h | 4 => fun i => (hok.2.2.2 i).elim fun _ h => h | 5 => hwx0_5 | ⟨_ + 6, h⟩ => absurd h (Nat.not_lt.2 (Nat.le_add_left _ _))

class Facts : Prop extends Facts₀ where
  harr0 : ∀ w, (spec0 w).arr.IsWhole

variable [Facts]
-- ==== ReferenceIdeal.lean ====
abbrev S256x1024x256 : Shape := ⟨3, ![256, 1024, 256]⟩
abbrev S256 : Shape := ⟨1, ![256]⟩
abbrev S1024x256x256 : Shape := ⟨3, ![1024, 256, 256]⟩
abbrev S1024x1x256 : Shape := ⟨3, ![1024, 1, 256]⟩
abbrev S_ : Shape := ⟨0, ![]⟩
abbrev S256x1 : Shape := ⟨2, ![256, 1]⟩
abbrev S256x256x256 : Shape := ⟨3, ![256, 256, 256]⟩
abbrev S256x1x256 : Shape := ⟨3, ![256, 1, 256]⟩

abbrev nBuf : Space → Nat
  | .hbm => 25
  | .vmem => 0
  | .smem => 0
  | _ => 0

abbrev bufTy : (tb : Table) → Fin (tcTables nBuf tb) → BufTy
  | .hbm, ⟨0, _⟩ => ⟨S256x1024x256, .f32⟩
  | .hbm, ⟨1, _⟩ => ⟨S256, .i32⟩
  | .hbm, ⟨2, _⟩ => ⟨S1024x256x256, .f32⟩
  | .hbm, ⟨3, _⟩ => ⟨S1024x1x256, .f32⟩
  | .hbm, ⟨4, _⟩ => ⟨S_, .i32⟩
  | .hbm, ⟨5, _⟩ => ⟨S256, .i32⟩
  | .hbm, ⟨6, _⟩ => ⟨S256, .i1⟩
  | .hbm, ⟨7, _⟩ => ⟨S_, .i32⟩
  | .hbm, ⟨8, _⟩ => ⟨S256, .i32⟩
  | .hbm, ⟨9, _⟩ => ⟨S256, .i32⟩
  | .hbm, ⟨10, _⟩ => ⟨S256, .i32⟩
  | .hbm, ⟨11, _⟩ => ⟨S256x1, .i32⟩
  | .hbm, ⟨12, _⟩ => ⟨S256x256x256, .f32⟩
  | .hbm, ⟨13, _⟩ => ⟨S_, .i32⟩
  | .hbm, ⟨14, _⟩ => ⟨S256, .i32⟩
  | .hbm, ⟨15, _⟩ => ⟨S256, .i1⟩
  | .hbm, ⟨16, _⟩ => ⟨S_, .i32⟩
  | .hbm, ⟨17, _⟩ => ⟨S256, .i32⟩
  | .hbm, ⟨18, _⟩ => ⟨S256, .i32⟩
  | .hbm, ⟨19, _⟩ => ⟨S256, .i32⟩
  | .hbm, ⟨20, _⟩ => ⟨S256x1, .i32⟩
  | .hbm, ⟨21, _⟩ => ⟨S256x1x256, .f32⟩
  | .hbm, ⟨22, _⟩ => ⟨S256x1024x256, .f32⟩
  | .hbm, ⟨23, _⟩ => ⟨S256x1024x256, .f32⟩
  | .hbm, ⟨24, _⟩ => ⟨S256x1024x256, .f32⟩
  | _, _ => ⟨S256x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]

class Facts₀ : Prop where
  bcast_S_S256 : S_.BroadcastsInDim S256 (![] : Fin 0 → Fin S256.rank)
  bcast_S256_S256x1_0 : S256.BroadcastsInDim S256x1 (![0] : Fin 1 → Fin S256x1.rank)
  bcast_S256x1x256_S256x1024x256_0_1_2 : S256x1x256.BroadcastsInDim S256x1024x256 (![0, 1, 2] : Fin 3 → Fin S256x1024x256.rank)
  gather_S1024x256x256_S256x1_S256x256x256_12_0_n_n_0_1_1256256_wf : GatherDims.WF S1024x256x256 S256x1 S256x256x256 [1, 2] [0] [] [0] [] 1 ![1, 256, 256]
  gather_S1024x1x256_S256x1_S256x1x256_12_0_n_n_0_1_11256_wf : GatherDims.WF S1024x1x256 S256x1 S256x1x256 [1, 2] [0] [] [0] [] 1 ![1, 1, 256]
  dot_S256x1024x256_S256x256x256_S256x1024x256_2_1_1_2_0_0_wf : DotDims.WF S256x1024x256 S256x256x256 S256x1024x256 [2] [1] [1] [2] [0] [0]

variable [Facts₀]

def gather_S1024x256x256_S256x1_S256x256x256_12_0_n_n_0_1_1256256 : GatherDims S1024x256x256 S256x1 S256x256x256 where
  offsetDims := [1, 2]
  collapsedSliceDims := [0]
  operandBatchingDims := []
  startIndicesBatchingDims := []
  startIndexMap := [0]
  indexVectorDim := 1
  sliceSizes := ![1, 256, 256]
  wf := gather_S1024x256x256_S256x1_S256x256x256_12_0_n_n_0_1_1256256_wf
def gather_S1024x1x256_S256x1_S256x1x256_12_0_n_n_0_1_11256 : GatherDims S1024x1x256 S256x1 S256x1x256 where
  offsetDims := [1, 2]
  collapsedSliceDims := [0]
  operandBatchingDims := []
  startIndicesBatchingDims := []
  startIndexMap := [0]
  indexVectorDim := 1
  sliceSizes := ![1, 1, 256]
  wf := gather_S1024x1x256_S256x1_S256x1x256_12_0_n_n_0_1_11256_wf
def dot_S256x1024x256_S256x256x256_S256x1024x256_2_1_1_2_0_0 : DotDims S256x1024x256 S256x256x256 S256x1024x256 where
  lhsContracting := [2]
  rhsContracting := [1]
  lhsNonContracting := [1]
  rhsNonContracting := [2]
  lhsBatch := [0]
  rhsBatch := [0]
  wf := dot_S256x1024x256_S256x256x256_S256x1024x256_2_1_1_2_0_0_wf

class Facts : Prop extends Facts₀ where

variable [Facts]
-- ==== Proof.KEntry.lean ====
/-
  The program up to its one kernel launch: the clipped index table the host computes, and why every block the
  launch fetches through that table lies inside its array.

  Before the launch the host writes two scalar constants (0 and 1023) and the table
      tbl[i] = min(1023, max(0, idx[i]))        (signed)
  into scalar memory. The launch's four table-indexed windows (two on the weight table, two on the bias table)
  fetch block number tbl[min(2·t + r, 255)] along the tables' leading axis of extent 1024, so they are inside
  their arrays because every word of the table lies in 0 … 1023 — whatever the index words are.
-/
import proofs.«402202_j11982958756449_2_alg».proof.Proof.Gen.Kernel.Launch
import proofs.«402202_j11982958756449_2_alg».proof.Proof.Gen.Kernel.Skeleton
import Idealize.ShloMosaic.Lib.Pipeline.Frame
import Idealize.ShloMosaic.Lib.Pipeline.FrameBody
import Idealize.ShloMosaic.Lib.StableHlo.Run

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

variable (m : (ℓ : Loc nD τ sig) → Buf (Elt F) ℓ) (ρ : Dev nD → PrngReg)

/-! ## The buffers when the launch is reached -/

/-- Core `c`'s buffers when the launch is reached: the launch memory after the host's eight operations. -/
abbrev V (c : Dev nD) (b : Ref sig .tc) : Buf (Elt F) ((c : Thread nD τ).loc b) :=
  StableHlo.after (List.flatten [hostOps0, hostOps0_1]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor

/-- The program is those two stretches of host operations and then the launch. -/
theorem hmain (𝒱₀ : Variants) :
    Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1]
    (by simp only [List.Forall]; exact ⟨hostOps0_sub, hostOps0_1_sub⟩)
    (by simp only [List.Forall]; exact ⟨hostOps0_fresh, hostOps0_1_fresh⟩) main_chain

/-- No host operation writes an argument array: the launch finds each as it was at the start. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, Finset.mem_singleton]
    repeat' apply And.intro
    all_goals exact StableHlo.devRef_ne_of_ne (by decide)))

/-! ## The table -/

/-- The clip of one index word to the tables' rows: `min(1023, max(0, v))`, signed. -/
def clipWord (v : BitVec 32) : BitVec 32 := IntOp.minsi 1023#32 (IntOp.maxsi 0#32 v)

/-- A clipped word is a row number: it lies in `0 … 1023`. -/
theorem clipWord_lt (v : BitVec 32) : (clipWord v).toNat < 1024 := by
  have hv := BitVec.toInt_eq_toNat_cond v
  unfold clipWord IntOp.minsi IntOp.maxsi
  simp only [BitVec.slt]
  split_ifs with h1 h2 h2
  · decide
  · decide
  · decide
  · simp only [decide_eq_true_eq, not_lt] at h1 h2
    have e0 : (0#32 : BitVec 32).toInt = 0 := by decide
    have e1 : (1023#32 : BitVec 32).toInt = 1023 := by decide
    rw [e0] at h1; rw [e1] at h2
    split at hv <;> omega

/-- The table the launch prefetches is the index vector clipped word by word. -/
theorem V_main_v0 (c : Dev nD) :
    (V m c main_v0 : S256.Idx → BitVec 32) = fun i => clipWord (m ((c : Thread nD τ).loc main_arg1) i) := by
  dsimp only [V]
  simp only [hostOps0, hostOps0_1, List.flatten_cons, List.flatten_nil, List.append_nil, List.cons_append, List.nil_append]
  after_results
  rfl

/-- The prefetched table's contents when the launch is reached (the program runs on one device). -/
def tbl : pre0.Contents (Elt F) := fun j => V m (0 : Dev nD) (pre0.ref j)

theorem V_pre (c : Dev nD) (j : Fin 1) : V m c (pre0.ref j) = tbl m j := by
  obtain rfl : c = 0 := Subsingleton.elim _ _; rfl

/-- Every word of the table is a row number. -/
theorem tbl_lt (i : S256.Idx) : ((tbl m 0 : S256.Idx → BitVec 32) i).toNat < 1024 := by
  have h := congrFun (V_main_v0 m (0 : Dev nD)) i
  show ((V m (0 : Dev nD) main_v0 : S256.Idx → BitVec 32) i).toNat < 1024
  rw [h]; exact clipWord_lt _

/-! ## The table is admissible -/

/-- Contents whose every word is a row number satisfy the launch's side condition: each weight block
    `(word, 0, 0)` of size `1 × 256 × 256` lies inside `1024 × 256 × 256`, each bias block of size `1 × 1 × 256`
    inside `1024 × 1 × 256`; the elements are one word wide. -/
theorem ok_of_lt (pf : pre0.Contents (Elt F)) (h : ∀ i : S256.Idx, ((pf 0 : S256.Idx → BitVec 32) i).toNat < 1024) :
    ok0 (F := F) pf := by
  refine ⟨fun i => ⟨fun a => ?_, .inl rfl⟩, fun i => ⟨fun a => ?_, .inl rfl⟩, fun i => ⟨fun a => ?_, .inl rfl⟩,
    fun i => ⟨fun a => ?_, .inl rfl⟩⟩
  all_goals
    match a with
    | ⟨0, _⟩ =>
      show ((pf 0 _ : BitVec 32).toNat + 1) * 1 ≤ 1024
      exact (Nat.mul_one _).le.trans (h _)
    | ⟨1, _⟩ => first | exact (by decide : (0 + 1) * 256 ≤ 256) | exact (by decide : (0 + 1) * 1 ≤ 1)
    | ⟨2, _⟩ => exact (by decide : (0 + 1) * 256 ≤ 256)

/-- The side condition holds of the table the host computes. -/
theorem ok_tbl : ok0 (F := F) (tbl m) := ok_of_lt (tbl m) (tbl_lt m)

end Cert.Kernel.Hand

end
-- ==== Proof.KRun.lean ====
/-
  The kernel body on any whole staging buffers: it reads the two activation slabs, the two selected weight
  matrices and the two selected bias rows, and overwrites the output buffer's two slabs; the inputs are left
  as they were. What the output buffer ends with is recorded as the list of the two stores.
-/
import proofs.«402202_j11982958756449_2_alg».proof.Proof.KEntry
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores the body leaves in the output buffer (last first), with the proof that from whole buffers —
    the five inputs at their contents, the output at anything — the body runs to its continuation holding the
    inputs unchanged and the output with those stores written. -/
noncomputable def kernelRun (c : Dev nD) (i : grid0.Coords)
    (arg1 : Memref sig .tc .smem S256 .i32) (harg1 : arg1.IsWhole)
    (arg2 : Memref sig .tc .vmem S2x1024x256 .f32) (harg2 : arg2.IsWhole)
    (arg3 : Memref sig .tc .vmem S1x256x256 .f32) (harg3 : arg3.IsWhole)
    (arg4 : Memref sig .tc .vmem S1x256x256 .f32) (harg4 : arg4.IsWhole)
    (arg5 : Memref sig .tc .vmem S1x1x256 .f32) (harg5 : arg5.IsWhole)
    (arg6 : Memref sig .tc .vmem S1x1x256 .f32) (harg6 : arg6.IsWhole)
    (arg7 : Memref sig .tc .vmem S2x1024x256 .f32) (harg7 : arg7.IsWhole)
    (x0 : Vec F S2x1024x256 .f32) (x1 x2 : Vec F S1x256x256 .f32) (x3 x4 : Vec F S1x1x256 .f32) :
    { L : List (View.Piece (Elt F) S2x1024x256 .f32) //
      ∀ (E : Set ℕ) (K : PUnit → sProp 𝕄),
        iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare x4 ∗ (∃ d, owns (c : Thread nD τ) arg7 fullShare d)
            ∗ (iprop(owns (c : Thread nD τ) arg2 fullShare x0 ∗ owns (c : Thread nD τ) arg3 fullShare x1
                ∗ owns (c : Thread nD τ) arg4 fullShare x2 ∗ owns (c : Thread nD τ) arg5 fullShare x3
                ∗ owns (c : Thread nD τ) arg6 fullShare x4
                ∗ (∃ f, arg7.view.loc (c : Thread nD τ) ↦[arg7.view.set]{fullShare} arg7.view.writes (Elt F) f L)) -∗ K ⟨⟩))
          ⊢ wp frame (wpE (defs₀ (F := F)) Variants.none c none) E
              (cc0__kernel i arg1 harg1 arg2 harg2 arg3 harg3 arg4 harg4 arg5 harg5 arg6 harg6 arg7 harg7) K } := by
  refine ⟨?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%d7, %f7, -, H7⟩, Hk⟩
    obtain rfl := harg2.eq_unread hf0
    obtain rfl := harg3.eq_unread hf1
    obtain rfl := harg4.eq_unread hf2
    obtain rfl := harg5.eq_unread hf3
    obtain rfl := harg6.eq_unread hf4
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact H7

end Cert.Kernel.Hand

end
-- ==== Proof.KFrame.lean ====
/-
  The launch's proof data and the body's obligation at every grid point.

  The launch runs the body at the 128 grid points t. At point t the pipeline has staged: the activations'
  block t (two batch entries), the weight matrices and bias rows the table selects for those two entries, and
  an output buffer whose two slabs the body overwrites. The weight table and the bias table are each handed to
  TWO windows, so each of those windows holds its array at half the full share; the body only reads them.

  Everything here is stated for ANY admissible contents `a` of the prefetched table: which block a
  table-indexed window holds is a function of `a`, and nothing below looks inside it.
-/
import proofs.«402202_j11982958756449_2_alg».proof.Proof.KRun

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (a : (pcfg0 (F := F)).Adm)

/-! ## The windows' blocks -/

/-- Window `w`'s block at point `t`, read off its array as the launch finds it. -/
def iblk (c : Dev nD) (w : Fin (cfg0 a).W) (t : Fin (cfg0 a).N) :
    (((cfg0 a).win w).xblock ((cfg0 a).grid.coords t)).Idx → Elt F ((cfg0 a).win w).elt :=
  (((cfg0 a).win w).blk t).view.read (Elt F) (V m c (Pipeline.arrRef spec0 w))

/-- An input window's current staging buffer holds its block at every point, fetched there or not, for any
    proof data whose array is the launch's and whose body leaves the block in place: where the pipeline does
    not fetch, the block index has not moved. -/
theorem before_of (w : Fin (cfg0 a).W) (hw : ((cfg0 a).win w).isOut = false) {c : Dev nD}
    (dat : Dat τ (Elt F) Unit ℕ (UR sig nD τ) ℕ (cfg0 a) c)
    (hlive : ∀ i, (cfg0 a).idle w i = false)
    (hclip : ∀ t t' : Fin (cfg0 a).N, ((cfg0 a).win w).index t = ((cfg0 a).win w).index t' →
      ((cfg0 a).win w).clip ((cfg0 a).grid.coords t) = ((cfg0 a).win w).clip ((cfg0 a).grid.coords t'))
    (hA : dat.A w = V m c (Pipeline.arrRef spec0 w))
    (hkeep : ∀ t, ((cfg0 a).win w).cut ((cfg0 a).grid.coords t) (dat.after w t) = dat.blockOf w t)
    (t : Fin (cfg0 a).N) (d) : dat.before w t d = dat.fetched w t d :=
  dat.before_in_eq_fetched w hw hlive hclip hkeep t d

/-! ## The staging buffers at a point -/

/-- Each window's current staging buffer at point `t`, as the pipeline passes it to the body. -/
abbrev ms0 (t : Fin (cfg0 a).N) : Memref sig .tc .vmem S2x1024x256 .f32 := spec0_0.stage ((cfg0 a).slots t 0)
abbrev hs0 (t : Fin (cfg0 a).N) : (ms0 a t).IsWhole := hstage0_0 (((cfg0 a).slots t 0).cast nbuf0_0)
abbrev ms1 (t : Fin (cfg0 a).N) : Memref sig .tc .vmem S1x256x256 .f32 := spec0_1.stage ((cfg0 a).slots t 1)
abbrev hs1 (t : Fin (cfg0 a).N) : (ms1 a t).IsWhole := hstage0_1 (((cfg0 a).slots t 1).cast nbuf0_1)
abbrev ms2 (t : Fin (cfg0 a).N) : Memref sig .tc .vmem S1x256x256 .f32 := spec0_2.stage ((cfg0 a).slots t 2)
abbrev hs2 (t : Fin (cfg0 a).N) : (ms2 a t).IsWhole := hstage0_2 (((cfg0 a).slots t 2).cast nbuf0_2)
abbrev ms3 (t : Fin (cfg0 a).N) : Memref sig .tc .vmem S1x1x256 .f32 := spec0_3.stage ((cfg0 a).slots t 3)
abbrev hs3 (t : Fin (cfg0 a).N) : (ms3 a t).IsWhole := hstage0_3 (((cfg0 a).slots t 3).cast nbuf0_3)
abbrev ms4 (t : Fin (cfg0 a).N) : Memref sig .tc .vmem S1x1x256 .f32 := spec0_4.stage ((cfg0 a).slots t 4)
abbrev hs4 (t : Fin (cfg0 a).N) : (ms4 a t).IsWhole := hstage0_4 (((cfg0 a).slots t 4).cast nbuf0_4)
abbrev ms5 (t : Fin (cfg0 a).N) : Memref sig .tc .vmem S2x1024x256 .f32 := spec0_5.stage ((cfg0 a).slots t 5)
abbrev hs5 (t : Fin (cfg0 a).N) : (ms5 a t).IsWhole := hstage0_5 (((cfg0 a).slots t 5).cast nbuf0_5)

/-- The body as the pipeline calls it at point `t`. -/
abbrev bodyAt (t : Fin (cfg0 a).N) : Prog (TpuEff nD τ sig (Elt F) Λ₀ .tc) PUnit :=
  cc0__kernel (grid0.coords t) (Memref.whole main_v0) (Memref.isWhole_whole _) (ms0 a t) (hs0 a t) (ms1 a t) (hs1 a t)
    (ms2 a t) (hs2 a t) (ms3 a t) (hs3 a t) (ms4 a t) (hs4 a t) (ms5 a t) (hs5 a t)

/-! ## What the body leaves in the output buffer -/

/-- One staging buffer of the output window, through which its contents are stated (the choice does not matter). -/
abbrev VO : View sig .tc .vmem S2x1024x256 .f32 := (Memref.whole cc0_stg5_0 : Memref sig .tc .vmem S2x1024x256 .f32).view

/-- The body's two stores tile the output buffer: slab 0 and slab 1, each `1 × 1024 × 256`. -/
theorem cover_out (c : Dev nD) (i : grid0.Coords)
    (arg1 : Memref sig .tc .smem S256 .i32) (harg1 : arg1.IsWhole)
    (arg2 : Memref sig .tc .vmem S2x1024x256 .f32) (harg2 : arg2.IsWhole)
    (arg3 : Memref sig .tc .vmem S1x256x256 .f32) (harg3 : arg3.IsWhole)
    (arg4 : Memref sig .tc .vmem S1x256x256 .f32) (harg4 : arg4.IsWhole)
    (arg5 : Memref sig .tc .vmem S1x1x256 .f32) (harg5 : arg5.IsWhole)
    (arg6 : Memref sig .tc .vmem S1x1x256 .f32) (harg6 : arg6.IsWhole)
    (arg7 : Memref sig .tc .vmem S2x1024x256 .f32) (harg7 : arg7.IsWhole)
    (x0 : Vec F S2x1024x256 .f32) (x1 x2 : Vec F S1x256x256 .f32) (x3 x4 : Vec F S1x1x256 .f32) (y : S2x1024x256.Idx) :
    ∃ pc ∈ (kernelRun c i arg1 harg1 arg2 harg2 arg3 harg3 arg4 harg4 arg5 harg5 arg6 harg6 arg7 harg7 x0 x1 x2 x3 x4).1, y ∈ pc.1.set :=
  View.cover_of_tiledL (kernelRun c i arg1 harg1 arg2 harg2 arg3 harg3 arg4 harg4 arg5 harg5 arg6 harg6 arg7 harg7 x0 x1 x2 x3 x4).1
    S1x1024x256.size (by sl_kernel_rfl) y

/-- What the body leaves in the output buffer: its stores read back (over anything). -/
def outOf (c : Dev nD) (i : grid0.Coords)
    (arg1 : Memref sig .tc .smem S256 .i32) (harg1 : arg1.IsWhole)
    (arg2 : Memref sig .tc .vmem S2x1024x256 .f32) (harg2 : arg2.IsWhole)
    (arg3 : Memref sig .tc .vmem S1x256x256 .f32) (harg3 : arg3.IsWhole)
    (arg4 : Memref sig .tc .vmem S1x256x256 .f32) (harg4 : arg4.IsWhole)
    (arg5 : Memref sig .tc .vmem S1x1x256 .f32) (harg5 : arg5.IsWhole)
    (arg6 : Memref sig .tc .vmem S1x1x256 .f32) (harg6 : arg6.IsWhole)
    (arg7 : Memref sig .tc .vmem S2x1024x256 .f32) (harg7 : arg7.IsWhole)
    (x0 : Vec F S2x1024x256 .f32) (x1 x2 : Vec F S1x256x256 .f32) (x3 x4 : Vec F S1x1x256 .f32) : Vec F S2x1024x256 .f32 :=
  VO.read (Elt F) (VO.writes (Elt F) VO.junk
    (kernelRun c i arg1 harg1 arg2 harg2 arg3 harg3 arg4 harg4 arg5 harg5 arg6 harg6 arg7 harg7 x0 x1 x2 x3 x4).1)

/-- What the output buffer holds after the body at point `t`: the body's result on the point's input blocks. -/
def outAt (c : Dev nD) (t : Fin (cfg0 a).N) : Vec F S2x1024x256 .f32 :=
  outOf c (grid0.coords t) (Memref.whole main_v0) (Memref.isWhole_whole _) (ms0 a t) (hs0 a t) (ms1 a t) (hs1 a t)
    (ms2 a t) (hs2 a t) (ms3 a t) (hs3 a t) (ms4 a t) (hs4 a t) (ms5 a t) (hs5 a t)
    (iblk m a c 0 t) (iblk m a c 1 t) (iblk m a c 2 t) (iblk m a c 3 t) (iblk m a c 4 t)

/-! ## The proof data -/

/-- The launch's proof data on core `c`: the arrays as the launch finds them; after the body at point `t` each
    input buffer at its block and the output buffer at the body's result; the invariant is the table's half
    share (the pipeline keeps the other half) and the core's other scoped buffers; the weight table and the
    bias table are each held by two windows, a half share each; nothing is owed. -/
def dats (_ : Fin 1) (c : Dev nD) : Dat τ (Elt F) Unit ℕ (UR sig nD τ) ℕ (cfg0 a) c where
  A w := V m c (Pipeline.arrRef spec0 w)
  after w t := match w with
    | ⟨0, _⟩ => iblk m a c 0 t
    | ⟨1, _⟩ => iblk m a c 1 t
    | ⟨2, _⟩ => iblk m a c 2 t
    | ⟨3, _⟩ => iblk m a c 3 t
    | ⟨4, _⟩ => iblk m a c 4 t
    | ⟨5, _⟩ => outAt m a c t
  Φ _ := iprop(Pipeline.prefHeld (Ix := Unit) (Name := ℕ) (U := UR sig nD τ) (Lvl := ℕ) pre0 c (fun _ => fullShare.right) a.1
      ∗ Pipeline.scopedRest (Ix := Unit) (Name := ℕ) (U := UR sig nD τ) (Lvl := ℕ) (Val := Elt F) spec0 c)
  q w := match w with
    | ⟨1, _⟩ => fullShare.left
    | ⟨2, _⟩ => fullShare.right
    | ⟨3, _⟩ => fullShare.left
    | ⟨4, _⟩ => fullShare.right
    | _ => fullShare
  owed _ := 0

theorem A_eq (c : Dev nD) (w : Fin (cfg0 a).W) : (dats m a 0 c).A w = V m c (Pipeline.arrRef spec0 w) := by
  dsimp only [dats]

theorem after0 (c : Dev nD) (t : Fin (cfg0 a).N) : (dats m a 0 c).after 0 t = iblk m a c 0 t := by dsimp only [dats]; try rfl
theorem after1 (c : Dev nD) (t : Fin (cfg0 a).N) : (dats m a 0 c).after 1 t = iblk m a c 1 t := by dsimp only [dats]; try rfl
theorem after2 (c : Dev nD) (t : Fin (cfg0 a).N) : (dats m a 0 c).after 2 t = iblk m a c 2 t := by dsimp only [dats]; try rfl
theorem after3 (c : Dev nD) (t : Fin (cfg0 a).N) : (dats m a 0 c).after 3 t = iblk m a c 3 t := by dsimp only [dats]; try rfl
theorem after4 (c : Dev nD) (t : Fin (cfg0 a).N) : (dats m a 0 c).after 4 t = iblk m a c 4 t := by dsimp only [dats]; try rfl
theorem after5 (c : Dev nD) (t : Fin (cfg0 a).N) : (dats m a 0 c).after 5 t = outAt m a c t := by dsimp only [dats]; try rfl

/-- Each input's current staging buffer holds its block at every point. -/
theorem before0 (c : Dev nD) (t : Fin (cfg0 a).N) (d) : (dats m a 0 c).before 0 t d = iblk m a c 0 t :=
  (before_of m a 0 rfl (dats m a 0 c) (fun _ => rfl) (fun _ _ _ => rfl) (A_eq m a c 0)
    (fun t => by rw [after0]; unfold Dat.blockOf iblk; rw [A_eq]; try rfl) t d).trans
    (by unfold Dat.fetched Dat.blockOf iblk; rw [A_eq]; try rfl)
theorem before1 (c : Dev nD) (t : Fin (cfg0 a).N) (d) : (dats m a 0 c).before 1 t d = iblk m a c 1 t :=
  (before_of m a 1 rfl (dats m a 0 c) (fun _ => rfl) (fun _ _ _ => rfl) (A_eq m a c 1)
    (fun t => by rw [after1]; unfold Dat.blockOf iblk; rw [A_eq]; try rfl) t d).trans
    (by unfold Dat.fetched Dat.blockOf iblk; rw [A_eq]; try rfl)
theorem before2 (c : Dev nD) (t : Fin (cfg0 a).N) (d) : (dats m a 0 c).before 2 t d = iblk m a c 2 t :=
  (before_of m a 2 rfl (dats m a 0 c) (fun _ => rfl) (fun _ _ _ => rfl) (A_eq m a c 2)
    (fun t => by rw [after2]; unfold Dat.blockOf iblk; rw [A_eq]; try rfl) t d).trans
    (by unfold Dat.fetched Dat.blockOf iblk; rw [A_eq]; try rfl)
theorem before3 (c : Dev nD) (t : Fin (cfg0 a).N) (d) : (dats m a 0 c).before 3 t d = iblk m a c 3 t :=
  (before_of m a 3 rfl (dats m a 0 c) (fun _ => rfl) (fun _ _ _ => rfl) (A_eq m a c 3)
    (fun t => by rw [after3]; unfold Dat.blockOf iblk; rw [A_eq]; try rfl) t d).trans
    (by unfold Dat.fetched Dat.blockOf iblk; rw [A_eq]; try rfl)
theorem before4 (c : Dev nD) (t : Fin (cfg0 a).N) (d) : (dats m a 0 c).before 4 t d = iblk m a c 4 t :=
  (before_of m a 4 rfl (dats m a 0 c) (fun _ => rfl) (fun _ _ _ => rfl) (A_eq m a c 4)
    (fun t => by rw [after4]; unfold Dat.blockOf iblk; rw [A_eq]; try rfl) t d).trans
    (by unfold Dat.fetched Dat.blockOf iblk; rw [A_eq]; try rfl)

/-! ## The body obligation, at a generic point -/

/-- What the body is called with at point `t`, -/
def bodyPre (c : Dev nD) (t : Fin (cfg0 a).N) : sProp 𝕄 :=
  iprop((dats m a 0 c).Φ t.castSucc ∗ (dats m a 0 c).owesAt () t.castSucc
    ∗ (∃ d, owns (c : Thread nD τ) (ms0 a t) fullShare ((dats m a 0 c).before 0 t d))
    ∗ (∃ d, owns (c : Thread nD τ) (ms1 a t) fullShare ((dats m a 0 c).before 1 t d))
    ∗ (∃ d, owns (c : Thread nD τ) (ms2 a t) fullShare ((dats m a 0 c).before 2 t d))
    ∗ (∃ d, owns (c : Thread nD τ) (ms3 a t) fullShare ((dats m a 0 c).before 3 t d))
    ∗ (∃ d, owns (c : Thread nD τ) (ms4 a t) fullShare ((dats m a 0 c).before 4 t d))
    ∗ (∃ d, owns (c : Thread nD τ) (ms5 a t) fullShare ((dats m a 0 c).before 5 t d)))

/-- and what it returns. -/
def bodyPost (c : Dev nD) (t : Fin (cfg0 a).N) : sProp 𝕄 :=
  iprop((dats m a 0 c).Φ t.succ ∗ (dats m a 0 c).owesAt () t.succ
    ∗ owns (c : Thread nD τ) (ms0 a t) fullShare ((dats m a 0 c).after 0 t)
    ∗ owns (c : Thread nD τ) (ms1 a t) fullShare ((dats m a 0 c).after 1 t)
    ∗ owns (c : Thread nD τ) (ms2 a t) fullShare ((dats m a 0 c).after 2 t)
    ∗ owns (c : Thread nD τ) (ms3 a t) fullShare ((dats m a 0 c).after 3 t)
    ∗ owns (c : Thread nD τ) (ms4 a t) fullShare ((dats m a 0 c).after 4 t)
    ∗ owns (c : Thread nD τ) (ms5 a t) fullShare ((dats m a 0 c).after 5 t))

/-- The body at any point: the inputs' buffers hold their blocks, so the run applies; the invariant passes
    through untouched; the core owes nothing throughout. -/
theorem sound_body (c : Dev nD) (t : Fin (cfg0 a).N) :
    bodyPre m a c t ⊢ wp frame (wpE (defs₀ (F := F)) Variants.none c none) Set.univ (bodyAt a t) (fun _ => bodyPost m a c t) := by
  unfold bodyPre bodyPost bodyAt
  simp only [before0, before1, before2, before3, before4]
  rw [show (dats m a 0 c).Φ t.succ = (dats m a 0 c).Φ t.castSucc from rfl,
    show (dats m a 0 c).owesAt () t.succ = (dats m a 0 c).owesAt () t.castSucc from rfl,
    after0, after1, after2, after3, after4, after5]
  unfold outAt
  unfold outOf
  iintro ⟨HΦ, Ho, ⟨%d0, H0⟩, ⟨%d1, H1⟩, ⟨%d2, H2⟩, ⟨%d3, H3⟩, ⟨%d4, H4⟩, ⟨%d5, H5⟩⟩
  iapply ((kernelRun c (grid0.coords t) _ _ _ _ _ _ _ _ _ _ _ _ _ _ (iblk m a c 0 t) (iblk m a c 1 t) (iblk m a c 2 t)
    (iblk m a c 3 t) (iblk m a c 4 t)).2 Set.univ _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, ⟨%e5, H5⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover_out c _ _ _ _ _ _ _ _ _ _ _ _ _ _ _ _ _ _ _ _)

/-- The body obligation at every point. -/
theorem body_obligation (c : Dev nD) :
    BodyObligation (dats (F := F) m a 0 c) (defs₀ (F := F)) Variants.none () Set.univ := fun t => by
  rw [bigSep_W0, bigSep_W0]
  exact sound_body m a c t

/-! ## The arrays dealt to the windows -/

/-- The four buffers behind the six windows, each held whole at the launch, are the six windows' arrays at the
    shares the proof data names: the weight table's full share is its left half (the first weight window) and its
    right half (the second), the bias table's likewise; the activations and the output are held whole. -/
theorem arrays_split (c : Dev nD) :
    (Pipeline.arrBufs (Ix := Unit) (Name := ℕ) (U := UR sig nD τ) (Lvl := ℕ) spec0 c (V m c) : sProp 𝕄)
      ⊢ (dats m a 0 c).arrays ((dats m a 0 c).arrAt · 0) := by
  have e : (dats m a 0 c).arrays ((dats m a 0 c).arrAt · 0)
      = bigSep Finset.univ fun w : Fin 6 => (((c.tc : Thread nD τ).loc (Pipeline.arrRef spec0 w)) ↦{(dats m a 0 c).share w}
          V m c (Pipeline.arrRef spec0 w) : sProp 𝕄) := by
    unfold Dat.arrays
    exact bigSep_congr fun w _ => by rw [(arr_whole0 w).set_eq_univ]; rfl
  rw [e, bigSep_W0]
  unfold Pipeline.arrBufs
  rw [bigSep_eq_bigSepL_of_eq [main_arg0, main_arg2, main_arg3, main_v1] (by decide) (by decide)]
  simp only [bigSepL_cons_cons, bigSepL_singleton]
  rw [show (dats m a 0 c).share 0 = fullShare from rfl, show (dats m a 0 c).share 1 = fullShare.left from rfl,
    show (dats m a 0 c).share 2 = fullShare.right from rfl, show (dats m a 0 c).share 3 = fullShare.left from rfl,
    show (dats m a 0 c).share 4 = fullShare.right from rfl, show (dats m a 0 c).share 5 = fullShare from rfl]
  show iprop((((c.tc : Thread nD τ).loc main_arg0) ↦{fullShare} V m c main_arg0)
      ∗ (((c.tc : Thread nD τ).loc main_arg2) ↦{fullShare} V m c main_arg2)
      ∗ (((c.tc : Thread nD τ).loc main_arg3) ↦{fullShare} V m c main_arg3)
      ∗ (((c.tc : Thread nD τ).loc main_v1) ↦{fullShare} V m c main_v1)) ⊢ _
  have s2 : ((((c.tc : Thread nD τ).loc main_arg2) ↦{fullShare} V m c main_arg2) : sProp 𝕄)
      ⊢ iprop((((c.tc : Thread nD τ).loc main_arg2) ↦{fullShare.left} V m c main_arg2)
          ∗ (((c.tc : Thread nD τ).loc main_arg2) ↦{fullShare.right} V m c main_arg2)) :=
    (pointsTo_share (PosShare.mem_left_op_right fullShare)).1
  have s3 : ((((c.tc : Thread nD τ).loc main_arg3) ↦{fullShare} V m c main_arg3) : sProp 𝕄)
      ⊢ iprop((((c.tc : Thread nD τ).loc main_arg3) ↦{fullShare.left} V m c main_arg3)
          ∗ (((c.tc : Thread nD τ).loc main_arg3) ↦{fullShare.right} V m c main_arg3)) :=
    (pointsTo_share (PosShare.mem_left_op_right fullShare)).1
  iintro ⟨H0, H2, H3, H5⟩
  ihave H2' := s2 $$ H2
  icases H2' with ⟨H2l, H2r⟩
  ihave H3' := s3 $$ H3
  icases H3' with ⟨H3l, H3r⟩
  isplitl [H0]; · iexact H0
  isplitl [H2l]; · iexact H2l
  isplitl [H2r]; · iexact H2r
  isplitl [H3l]; · iexact H3l
  isplitl [H3r]; · iexact H3r
  iexact H5

/-! ## The launch -/

/-- The run: for table contents `a` that are what the launch finds in scalar memory (`hpf`), every weakly fair
    execution of the program terminates without a fault; the output array ends at what the library computes from
    the proof data (the blocks the body left, written back point by point), and the four argument arrays end as
    they began. -/
theorem run_main (hpf : ∀ (c : Dev nD) (k : Fin 1), V m c (pre0.ref k) = a.1 k) :
    θ_run defs (onTc (τ := τ) (main (F := F))) ⟨m, fun _ => 0, ρ⟩ (fun r => ∀ c : Dev nD,
      r.2.mem ((c.tc : Thread nD τ).loc main_v1) = (dats m a 0 c).arrAt 5 (cfg0 a).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  classical
  exact Pipeline.θ_run_region_noSem_pf pcfgs (fun _ => a) (dats m a) () (cellOf_inj (fun _ => a)) (0 : Fin 1)
    winFacts₀0 preFacts0 emb₁ defs₀ Variants.none m ρ main
    (hbody := fun c => (body_obligation m a c).loose) (hne := block_pos0) (harr := arr_whole0) (hstage := stage_whole0)
    (howed := fun _ _ => rfl)
    (u₀ := initOf (Pipeline.cells (Pipeline.pin pcfgs fun _ => a) (cellOf_inj (fun _ => a)))
      (Pipeline.launchToks (Pipeline.pin pcfgs fun _ => a) (cellOf_inj (fun _ => a))))
    (hu₀ := .rfl)
    (V := V m) (hmain := hmain m Variants.none) (hsplit := arrays_split m a) (hpf := hpf)
    (X := fun _ => iprop(emp))
    (Y := fun c => Pipeline.prefHeld (Ix := Unit) (Name := ℕ) (U := UR sig nD τ) (Lvl := ℕ) pre0 c (fun _ => fullShare.right) a.1)
    (Z := fun c => Pipeline.unscopedRestP (Ix := Unit) (Name := ℕ) (U := UR sig nD τ) (Lvl := ℕ) pre0 spec0 c (V m c))
    (hX := fun c => by
      iintro H
      isplitr
      · iempintro
      iexact H)
    (hin := fun c => by
      show _ ⊢ iprop(Pipeline.prefHeld (Ix := Unit) (Name := ℕ) (U := UR sig nD τ) (Lvl := ℕ) pre0 c (fun _ => fullShare.right) a.1
        ∗ Pipeline.scopedRest (Ix := Unit) (Name := ℕ) (U := UR sig nD τ) (Lvl := ℕ) (Val := Elt F) spec0 c)
      iintro ⟨-, Ht, Hr⟩
      isplitl [Ht]
      · iexact Ht
      iexact Hr)
    (hout := fun c => by
      show iprop(Pipeline.prefHeld (Ix := Unit) (Name := ℕ) (U := UR sig nD τ) (Lvl := ℕ) pre0 c (fun _ => fullShare.right) a.1
        ∗ Pipeline.scopedRest (Ix := Unit) (Name := ℕ) (U := UR sig nD τ) (Lvl := ℕ) (Val := Elt F) spec0 c) ⊢ _
      exact .rfl)
    (QY := fun c s => ∀ b ∈ Pipeline.restRefsP sig pre0 spec0, s.mem ((c.tc : Thread nD τ).loc b) = V m c b)
    (hY := fun c s' => by
      iintro ⟨-, HU, HSI⟩
      unfold Pipeline.unscopedRestP
      imodintro
      iapply (pointsTo_read_all (Pipeline.restRefsP sig pre0 spec0) (fun b => (c.tc : Thread nD τ).loc b) (V m c) s')
      isplitl [HU] <;> iassumption)
    (hQ := fun s h c =>
      ⟨(h c).1 5,
       ((h c).1 0).trans (((dats m a 0 c).arrAt_in 0 rfl _).trans ((A_eq m a c 0).trans (V_main_arg0 m c))),
       ((h c).2.2 main_arg1 (by decide)).trans (V_main_arg1 m c),
       ((h c).1 1).trans (((dats m a 0 c).arrAt_in 1 rfl _).trans ((A_eq m a c 1).trans (V_main_arg2 m c))),
       ((h c).1 3).trans (((dats m a 0 c).arrAt_in 3 rfl _).trans ((A_eq m a c 3).trans (V_main_arg3 m c)))⟩)

/-! ## At the table the host computes -/

/-- The table the host computes, as admissible contents. -/
abbrev adm : (pcfg0 (F := F)).Adm := ⟨tbl m, ok_tbl m⟩

/-- The run at the host's table: the output array ends at the proof data's closed term, the arguments unchanged. -/
theorem run_tbl :
    θ_run defs (onTc (τ := τ) (main (F := F))) ⟨m, fun _ => 0, ρ⟩ (fun r => ∀ c : Dev nD,
      r.2.mem ((c.tc : Thread nD τ).loc main_v1) = (dats m (adm m) 0 c).arrAt 5 (cfg0 (adm m)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  run_main m ρ (adm m) (V_pre m)

/-- The frame: the program runs to the end, faults nowhere, and leaves its four argument arrays unchanged —
    for every launch memory, with no condition on the index words (the table is clipped before it is used). -/
theorem frame :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_tbl m ρ)

end Cert.Kernel.Hand

end
-- ==== Proof.KiEntry.lean ====
/-
  The program up to its one kernel launch: the clipped index table the host computes, and why every block the
  launch fetches through that table lies inside its array.

  Before the launch the host writes two scalar constants (0 and 1023) and the table
      tbl[i] = min(1023, max(0, idx[i]))        (signed)
  into scalar memory. The launch's four table-indexed windows (two on the weight table, two on the bias table)
  fetch block number tbl[min(2·t + r, 255)] along the tables' leading axis of extent 1024, so they are inside
  their arrays because every word of the table lies in 0 … 1023 — whatever the index words are.
-/
import proofs.«402202_j11982958756449_2_alg».proof.Proof.Gen.KernelIdeal.Launch
import proofs.«402202_j11982958756449_2_alg».proof.Proof.Gen.KernelIdeal.Skeleton
import Idealize.ShloMosaic.Lib.Pipeline.Frame
import Idealize.ShloMosaic.Lib.Pipeline.FrameBody
import Idealize.ShloMosaic.Lib.StableHlo.Run

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

variable (m : (ℓ : Loc nD τ sig) → Buf (Elt F) ℓ) (ρ : Dev nD → PrngReg)

/-! ## The buffers when the launch is reached -/

/-- Core `c`'s buffers when the launch is reached: the launch memory after the host's eight operations. -/
abbrev V (c : Dev nD) (b : Ref sig .tc) : Buf (Elt F) ((c : Thread nD τ).loc b) :=
  StableHlo.after (List.flatten [hostOps0, hostOps0_1]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor

/-- The program is those two stretches of host operations and then the launch. -/
theorem hmain (𝒱₀ : Variants) :
    Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1]
    (by simp only [List.Forall]; exact ⟨hostOps0_sub, hostOps0_1_sub⟩)
    (by simp only [List.Forall]; exact ⟨hostOps0_fresh, hostOps0_1_fresh⟩) main_chain

/-- No host operation writes an argument array: the launch finds each as it was at the start. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, Finset.mem_singleton]
    repeat' apply And.intro
    all_goals exact StableHlo.devRef_ne_of_ne (by decide)))

/-! ## The table -/

/-- The clip of one index word to the tables' rows: `min(1023, max(0, v))`, signed. -/
def clipWord (v : BitVec 32) : BitVec 32 := IntOp.minsi 1023#32 (IntOp.maxsi 0#32 v)

/-- A clipped word is a row number: it lies in `0 … 1023`. -/
theorem clipWord_lt (v : BitVec 32) : (clipWord v).toNat < 1024 := by
  have hv := BitVec.toInt_eq_toNat_cond v
  unfold clipWord IntOp.minsi IntOp.maxsi
  simp only [BitVec.slt]
  split_ifs with h1 h2 h2
  · decide
  · decide
  · decide
  · simp only [decide_eq_true_eq, not_lt] at h1 h2
    have e0 : (0#32 : BitVec 32).toInt = 0 := by decide
    have e1 : (1023#32 : BitVec 32).toInt = 1023 := by decide
    rw [e0] at h1; rw [e1] at h2
    split at hv <;> omega

/-- The table the launch prefetches is the index vector clipped word by word. -/
theorem V_main_v0 (c : Dev nD) :
    (V m c main_v0 : S256.Idx → BitVec 32) = fun i => clipWord (m ((c : Thread nD τ).loc main_arg1) i) := by
  dsimp only [V]
  simp only [hostOps0, hostOps0_1, List.flatten_cons, List.flatten_nil, List.append_nil, List.cons_append, List.nil_append]
  after_results
  rfl

/-- The prefetched table's contents when the launch is reached (the program runs on one device). -/
def tbl : pre0.Contents (Elt F) := fun j => V m (0 : Dev nD) (pre0.ref j)

theorem V_pre (c : Dev nD) (j : Fin 1) : V m c (pre0.ref j) = tbl m j := by
  obtain rfl : c = 0 := Subsingleton.elim _ _; rfl

/-- Every word of the table is a row number. -/
theorem tbl_lt (i : S256.Idx) : ((tbl m 0 : S256.Idx → BitVec 32) i).toNat < 1024 := by
  have h := congrFun (V_main_v0 m (0 : Dev nD)) i
  show ((V m (0 : Dev nD) main_v0 : S256.Idx → BitVec 32) i).toNat < 1024
  rw [h]; exact clipWord_lt _

/-! ## The table is admissible -/

/-- Contents whose every word is a row number satisfy the launch's side condition: each weight block
    `(word, 0, 0)` of size `1 × 256 × 256` lies inside `1024 × 256 × 256`, each bias block of size `1 × 1 × 256`
    inside `1024 × 1 × 256`; the elements are one word wide. -/
theorem ok_of_lt (pf : pre0.Contents (Elt F)) (h : ∀ i : S256.Idx, ((pf 0 : S256.Idx → BitVec 32) i).toNat < 1024) :
    ok0 (F := F) pf := by
  refine ⟨fun i => ⟨fun a => ?_, .inl rfl⟩, fun i => ⟨fun a => ?_, .inl rfl⟩, fun i => ⟨fun a => ?_, .inl rfl⟩,
    fun i => ⟨fun a => ?_, .inl rfl⟩⟩
  all_goals
    match a with
    | ⟨0, _⟩ =>
      show ((pf 0 _ : BitVec 32).toNat + 1) * 1 ≤ 1024
      exact (Nat.mul_one _).le.trans (h _)
    | ⟨1, _⟩ => first | exact (by decide : (0 + 1) * 256 ≤ 256) | exact (by decide : (0 + 1) * 1 ≤ 1)
    | ⟨2, _⟩ => exact (by decide : (0 + 1) * 256 ≤ 256)

/-- The side condition holds of the table the host computes. -/
theorem ok_tbl : ok0 (F := F) (tbl m) := ok_of_lt (tbl m) (tbl_lt m)

end Cert.KernelIdeal.Hand

end
-- ==== Proof.KiRun.lean ====
/-
  The kernel body on any whole staging buffers: it reads the two activation slabs, the two selected weight
  matrices and the two selected bias rows, and overwrites the output buffer's two slabs; the inputs are left
  as they were. What the output buffer ends with is recorded as the list of the two stores.
-/
import proofs.«402202_j11982958756449_2_alg».proof.Proof.KiEntry
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores the body leaves in the output buffer (last first), with the proof that from whole buffers —
    the five inputs at their contents, the output at anything — the body runs to its continuation holding the
    inputs unchanged and the output with those stores written. -/
noncomputable def kernelRun (c : Dev nD) (i : grid0.Coords)
    (arg1 : Memref sig .tc .smem S256 .i32) (harg1 : arg1.IsWhole)
    (arg2 : Memref sig .tc .vmem S2x1024x256 .f32) (harg2 : arg2.IsWhole)
    (arg3 : Memref sig .tc .vmem S1x256x256 .f32) (harg3 : arg3.IsWhole)
    (arg4 : Memref sig .tc .vmem S1x256x256 .f32) (harg4 : arg4.IsWhole)
    (arg5 : Memref sig .tc .vmem S1x1x256 .f32) (harg5 : arg5.IsWhole)
    (arg6 : Memref sig .tc .vmem S1x1x256 .f32) (harg6 : arg6.IsWhole)
    (arg7 : Memref sig .tc .vmem S2x1024x256 .f32) (harg7 : arg7.IsWhole)
    (x0 : Vec F S2x1024x256 .f32) (x1 x2 : Vec F S1x256x256 .f32) (x3 x4 : Vec F S1x1x256 .f32) :
    { L : List (View.Piece (Elt F) S2x1024x256 .f32) //
      ∀ (E : Set ℕ) (K : PUnit → sProp 𝕄),
        iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare x4 ∗ (∃ d, owns (c : Thread nD τ) arg7 fullShare d)
            ∗ (iprop(owns (c : Thread nD τ) arg2 fullShare x0 ∗ owns (c : Thread nD τ) arg3 fullShare x1
                ∗ owns (c : Thread nD τ) arg4 fullShare x2 ∗ owns (c : Thread nD τ) arg5 fullShare x3
                ∗ owns (c : Thread nD τ) arg6 fullShare x4
                ∗ (∃ f, arg7.view.loc (c : Thread nD τ) ↦[arg7.view.set]{fullShare} arg7.view.writes (Elt F) f L)) -∗ K ⟨⟩))
          ⊢ wp frame (wpE (defs₀ (F := F)) Variants.none c none) E
              (cc0__kernel i arg1 harg1 arg2 harg2 arg3 harg3 arg4 harg4 arg5 harg5 arg6 harg6 arg7 harg7) K } := by
  refine ⟨?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%d7, %f7, -, H7⟩, Hk⟩
    obtain rfl := harg2.eq_unread hf0
    obtain rfl := harg3.eq_unread hf1
    obtain rfl := harg4.eq_unread hf2
    obtain rfl := harg5.eq_unread hf3
    obtain rfl := harg6.eq_unread hf4
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact H7

end Cert.KernelIdeal.Hand

end
-- ==== Proof.KiFrame.lean ====
/-
  The launch's proof data and the body's obligation at every grid point.

  The launch runs the body at the 128 grid points t. At point t the pipeline has staged: the activations'
  block t (two batch entries), the weight matrices and bias rows the table selects for those two entries, and
  an output buffer whose two slabs the body overwrites. The weight table and the bias table are each handed to
  TWO windows, so each of those windows holds its array at half the full share; the body only reads them.

  Everything here is stated for ANY admissible contents `a` of the prefetched table: which block a
  table-indexed window holds is a function of `a`, and nothing below looks inside it.
-/
import proofs.«402202_j11982958756449_2_alg».proof.Proof.KiRun

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (a : (pcfg0 (F := F)).Adm)

/-! ## The windows' blocks -/

/-- Window `w`'s block at point `t`, read off its array as the launch finds it. -/
def iblk (c : Dev nD) (w : Fin (cfg0 a).W) (t : Fin (cfg0 a).N) :
    (((cfg0 a).win w).xblock ((cfg0 a).grid.coords t)).Idx → Elt F ((cfg0 a).win w).elt :=
  (((cfg0 a).win w).blk t).view.read (Elt F) (V m c (Pipeline.arrRef spec0 w))

/-- An input window's current staging buffer holds its block at every point, fetched there or not, for any
    proof data whose array is the launch's and whose body leaves the block in place: where the pipeline does
    not fetch, the block index has not moved. -/
theorem before_of (w : Fin (cfg0 a).W) (hw : ((cfg0 a).win w).isOut = false) {c : Dev nD}
    (dat : Dat τ (Elt F) Unit ℕ (UR sig nD τ) ℕ (cfg0 a) c)
    (hlive : ∀ i, (cfg0 a).idle w i = false)
    (hclip : ∀ t t' : Fin (cfg0 a).N, ((cfg0 a).win w).index t = ((cfg0 a).win w).index t' →
      ((cfg0 a).win w).clip ((cfg0 a).grid.coords t) = ((cfg0 a).win w).clip ((cfg0 a).grid.coords t'))
    (hA : dat.A w = V m c (Pipeline.arrRef spec0 w))
    (hkeep : ∀ t, ((cfg0 a).win w).cut ((cfg0 a).grid.coords t) (dat.after w t) = dat.blockOf w t)
    (t : Fin (cfg0 a).N) (d) : dat.before w t d = dat.fetched w t d :=
  dat.before_in_eq_fetched w hw hlive hclip hkeep t d

/-! ## The staging buffers at a point -/

/-- Each window's current staging buffer at point `t`, as the pipeline passes it to the body. -/
abbrev ms0 (t : Fin (cfg0 a).N) : Memref sig .tc .vmem S2x1024x256 .f32 := spec0_0.stage ((cfg0 a).slots t 0)
abbrev hs0 (t : Fin (cfg0 a).N) : (ms0 a t).IsWhole := hstage0_0 (((cfg0 a).slots t 0).cast nbuf0_0)
abbrev ms1 (t : Fin (cfg0 a).N) : Memref sig .tc .vmem S1x256x256 .f32 := spec0_1.stage ((cfg0 a).slots t 1)
abbrev hs1 (t : Fin (cfg0 a).N) : (ms1 a t).IsWhole := hstage0_1 (((cfg0 a).slots t 1).cast nbuf0_1)
abbrev ms2 (t : Fin (cfg0 a).N) : Memref sig .tc .vmem S1x256x256 .f32 := spec0_2.stage ((cfg0 a).slots t 2)
abbrev hs2 (t : Fin (cfg0 a).N) : (ms2 a t).IsWhole := hstage0_2 (((cfg0 a).slots t 2).cast nbuf0_2)
abbrev ms3 (t : Fin (cfg0 a).N) : Memref sig .tc .vmem S1x1x256 .f32 := spec0_3.stage ((cfg0 a).slots t 3)
abbrev hs3 (t : Fin (cfg0 a).N) : (ms3 a t).IsWhole := hstage0_3 (((cfg0 a).slots t 3).cast nbuf0_3)
abbrev ms4 (t : Fin (cfg0 a).N) : Memref sig .tc .vmem S1x1x256 .f32 := spec0_4.stage ((cfg0 a).slots t 4)
abbrev hs4 (t : Fin (cfg0 a).N) : (ms4 a t).IsWhole := hstage0_4 (((cfg0 a).slots t 4).cast nbuf0_4)
abbrev ms5 (t : Fin (cfg0 a).N) : Memref sig .tc .vmem S2x1024x256 .f32 := spec0_5.stage ((cfg0 a).slots t 5)
abbrev hs5 (t : Fin (cfg0 a).N) : (ms5 a t).IsWhole := hstage0_5 (((cfg0 a).slots t 5).cast nbuf0_5)

/-- The body as the pipeline calls it at point `t`. -/
abbrev bodyAt (t : Fin (cfg0 a).N) : Prog (TpuEff nD τ sig (Elt F) Λ₀ .tc) PUnit :=
  cc0__kernel (grid0.coords t) (Memref.whole main_v0) (Memref.isWhole_whole _) (ms0 a t) (hs0 a t) (ms1 a t) (hs1 a t)
    (ms2 a t) (hs2 a t) (ms3 a t) (hs3 a t) (ms4 a t) (hs4 a t) (ms5 a t) (hs5 a t)

/-! ## What the body leaves in the output buffer -/

/-- One staging buffer of the output window, through which its contents are stated (the choice does not matter). -/
abbrev VO : View sig .tc .vmem S2x1024x256 .f32 := (Memref.whole cc0_stg5_0 : Memref sig .tc .vmem S2x1024x256 .f32).view

/-- The body's two stores tile the output buffer: slab 0 and slab 1, each `1 × 1024 × 256`. -/
theorem cover_out (c : Dev nD) (i : grid0.Coords)
    (arg1 : Memref sig .tc .smem S256 .i32) (harg1 : arg1.IsWhole)
    (arg2 : Memref sig .tc .vmem S2x1024x256 .f32) (harg2 : arg2.IsWhole)
    (arg3 : Memref sig .tc .vmem S1x256x256 .f32) (harg3 : arg3.IsWhole)
    (arg4 : Memref sig .tc .vmem S1x256x256 .f32) (harg4 : arg4.IsWhole)
    (arg5 : Memref sig .tc .vmem S1x1x256 .f32) (harg5 : arg5.IsWhole)
    (arg6 : Memref sig .tc .vmem S1x1x256 .f32) (harg6 : arg6.IsWhole)
    (arg7 : Memref sig .tc .vmem S2x1024x256 .f32) (harg7 : arg7.IsWhole)
    (x0 : Vec F S2x1024x256 .f32) (x1 x2 : Vec F S1x256x256 .f32) (x3 x4 : Vec F S1x1x256 .f32) (y : S2x1024x256.Idx) :
    ∃ pc ∈ (kernelRun c i arg1 harg1 arg2 harg2 arg3 harg3 arg4 harg4 arg5 harg5 arg6 harg6 arg7 harg7 x0 x1 x2 x3 x4).1, y ∈ pc.1.set :=
  View.cover_of_tiledL (kernelRun c i arg1 harg1 arg2 harg2 arg3 harg3 arg4 harg4 arg5 harg5 arg6 harg6 arg7 harg7 x0 x1 x2 x3 x4).1
    S1x1024x256.size (by sl_kernel_rfl) y

/-- What the body leaves in the output buffer: its stores read back (over anything). -/
def outOf (c : Dev nD) (i : grid0.Coords)
    (arg1 : Memref sig .tc .smem S256 .i32) (harg1 : arg1.IsWhole)
    (arg2 : Memref sig .tc .vmem S2x1024x256 .f32) (harg2 : arg2.IsWhole)
    (arg3 : Memref sig .tc .vmem S1x256x256 .f32) (harg3 : arg3.IsWhole)
    (arg4 : Memref sig .tc .vmem S1x256x256 .f32) (harg4 : arg4.IsWhole)
    (arg5 : Memref sig .tc .vmem S1x1x256 .f32) (harg5 : arg5.IsWhole)
    (arg6 : Memref sig .tc .vmem S1x1x256 .f32) (harg6 : arg6.IsWhole)
    (arg7 : Memref sig .tc .vmem S2x1024x256 .f32) (harg7 : arg7.IsWhole)
    (x0 : Vec F S2x1024x256 .f32) (x1 x2 : Vec F S1x256x256 .f32) (x3 x4 : Vec F S1x1x256 .f32) : Vec F S2x1024x256 .f32 :=
  VO.read (Elt F) (VO.writes (Elt F) VO.junk
    (kernelRun c i arg1 harg1 arg2 harg2 arg3 harg3 arg4 harg4 arg5 harg5 arg6 harg6 arg7 harg7 x0 x1 x2 x3 x4).1)

/-- What the output buffer holds after the body at point `t`: the body's result on the point's input blocks. -/
def outAt (c : Dev nD) (t : Fin (cfg0 a).N) : Vec F S2x1024x256 .f32 :=
  outOf c (grid0.coords t) (Memref.whole main_v0) (Memref.isWhole_whole _) (ms0 a t) (hs0 a t) (ms1 a t) (hs1 a t)
    (ms2 a t) (hs2 a t) (ms3 a t) (hs3 a t) (ms4 a t) (hs4 a t) (ms5 a t) (hs5 a t)
    (iblk m a c 0 t) (iblk m a c 1 t) (iblk m a c 2 t) (iblk m a c 3 t) (iblk m a c 4 t)

/-! ## The proof data -/

/-- The launch's proof data on core `c`: the arrays as the launch finds them; after the body at point `t` each
    input buffer at its block and the output buffer at the body's result; the invariant is the table's half
    share (the pipeline keeps the other half) and the core's other scoped buffers; the weight table and the
    bias table are each held by two windows, a half share each; nothing is owed. -/
def dats (_ : Fin 1) (c : Dev nD) : Dat τ (Elt F) Unit ℕ (UR sig nD τ) ℕ (cfg0 a) c where
  A w := V m c (Pipeline.arrRef spec0 w)
  after w t := match w with
    | ⟨0, _⟩ => iblk m a c 0 t
    | ⟨1, _⟩ => iblk m a c 1 t
    | ⟨2, _⟩ => iblk m a c 2 t
    | ⟨3, _⟩ => iblk m a c 3 t
    | ⟨4, _⟩ => iblk m a c 4 t
    | ⟨5, _⟩ => outAt m a c t
  Φ _ := iprop(Pipeline.prefHeld (Ix := Unit) (Name := ℕ) (U := UR sig nD τ) (Lvl := ℕ) pre0 c (fun _ => fullShare.right) a.1
      ∗ Pipeline.scopedRest (Ix := Unit) (Name := ℕ) (U := UR sig nD τ) (Lvl := ℕ) (Val := Elt F) spec0 c)
  q w := match w with
    | ⟨1, _⟩ => fullShare.left
    | ⟨2, _⟩ => fullShare.right
    | ⟨3, _⟩ => fullShare.left
    | ⟨4, _⟩ => fullShare.right
    | _ => fullShare
  owed _ := 0

theorem A_eq (c : Dev nD) (w : Fin (cfg0 a).W) : (dats m a 0 c).A w = V m c (Pipeline.arrRef spec0 w) := by
  dsimp only [dats]

theorem after0 (c : Dev nD) (t : Fin (cfg0 a).N) : (dats m a 0 c).after 0 t = iblk m a c 0 t := by dsimp only [dats]; try rfl
theorem after1 (c : Dev nD) (t : Fin (cfg0 a).N) : (dats m a 0 c).after 1 t = iblk m a c 1 t := by dsimp only [dats]; try rfl
theorem after2 (c : Dev nD) (t : Fin (cfg0 a).N) : (dats m a 0 c).after 2 t = iblk m a c 2 t := by dsimp only [dats]; try rfl
theorem after3 (c : Dev nD) (t : Fin (cfg0 a).N) : (dats m a 0 c).after 3 t = iblk m a c 3 t := by dsimp only [dats]; try rfl
theorem after4 (c : Dev nD) (t : Fin (cfg0 a).N) : (dats m a 0 c).after 4 t = iblk m a c 4 t := by dsimp only [dats]; try rfl
theorem after5 (c : Dev nD) (t : Fin (cfg0 a).N) : (dats m a 0 c).after 5 t = outAt m a c t := by dsimp only [dats]; try rfl

/-- Each input's current staging buffer holds its block at every point. -/
theorem before0 (c : Dev nD) (t : Fin (cfg0 a).N) (d) : (dats m a 0 c).before 0 t d = iblk m a c 0 t :=
  (before_of m a 0 rfl (dats m a 0 c) (fun _ => rfl) (fun _ _ _ => rfl) (A_eq m a c 0)
    (fun t => by rw [after0]; unfold Dat.blockOf iblk; rw [A_eq]; try rfl) t d).trans
    (by unfold Dat.fetched Dat.blockOf iblk; rw [A_eq]; try rfl)
theorem before1 (c : Dev nD) (t : Fin (cfg0 a).N) (d) : (dats m a 0 c).before 1 t d = iblk m a c 1 t :=
  (before_of m a 1 rfl (dats m a 0 c) (fun _ => rfl) (fun _ _ _ => rfl) (A_eq m a c 1)
    (fun t => by rw [after1]; unfold Dat.blockOf iblk; rw [A_eq]; try rfl) t d).trans
    (by unfold Dat.fetched Dat.blockOf iblk; rw [A_eq]; try rfl)
theorem before2 (c : Dev nD) (t : Fin (cfg0 a).N) (d) : (dats m a 0 c).before 2 t d = iblk m a c 2 t :=
  (before_of m a 2 rfl (dats m a 0 c) (fun _ => rfl) (fun _ _ _ => rfl) (A_eq m a c 2)
    (fun t => by rw [after2]; unfold Dat.blockOf iblk; rw [A_eq]; try rfl) t d).trans
    (by unfold Dat.fetched Dat.blockOf iblk; rw [A_eq]; try rfl)
theorem before3 (c : Dev nD) (t : Fin (cfg0 a).N) (d) : (dats m a 0 c).before 3 t d = iblk m a c 3 t :=
  (before_of m a 3 rfl (dats m a 0 c) (fun _ => rfl) (fun _ _ _ => rfl) (A_eq m a c 3)
    (fun t => by rw [after3]; unfold Dat.blockOf iblk; rw [A_eq]; try rfl) t d).trans
    (by unfold Dat.fetched Dat.blockOf iblk; rw [A_eq]; try rfl)
theorem before4 (c : Dev nD) (t : Fin (cfg0 a).N) (d) : (dats m a 0 c).before 4 t d = iblk m a c 4 t :=
  (before_of m a 4 rfl (dats m a 0 c) (fun _ => rfl) (fun _ _ _ => rfl) (A_eq m a c 4)
    (fun t => by rw [after4]; unfold Dat.blockOf iblk; rw [A_eq]; try rfl) t d).trans
    (by unfold Dat.fetched Dat.blockOf iblk; rw [A_eq]; try rfl)

/-! ## The body obligation, at a generic point -/

/-- What the body is called with at point `t`, -/
def bodyPre (c : Dev nD) (t : Fin (cfg0 a).N) : sProp 𝕄 :=
  iprop((dats m a 0 c).Φ t.castSucc ∗ (dats m a 0 c).owesAt () t.castSucc
    ∗ (∃ d, owns (c : Thread nD τ) (ms0 a t) fullShare ((dats m a 0 c).before 0 t d))
    ∗ (∃ d, owns (c : Thread nD τ) (ms1 a t) fullShare ((dats m a 0 c).before 1 t d))
    ∗ (∃ d, owns (c : Thread nD τ) (ms2 a t) fullShare ((dats m a 0 c).before 2 t d))
    ∗ (∃ d, owns (c : Thread nD τ) (ms3 a t) fullShare ((dats m a 0 c).before 3 t d))
    ∗ (∃ d, owns (c : Thread nD τ) (ms4 a t) fullShare ((dats m a 0 c).before 4 t d))
    ∗ (∃ d, owns (c : Thread nD τ) (ms5 a t) fullShare ((dats m a 0 c).before 5 t d)))

/-- and what it returns. -/
def bodyPost (c : Dev nD) (t : Fin (cfg0 a).N) : sProp 𝕄 :=
  iprop((dats m a 0 c).Φ t.succ ∗ (dats m a 0 c).owesAt () t.succ
    ∗ owns (c : Thread nD τ) (ms0 a t) fullShare ((dats m a 0 c).after 0 t)
    ∗ owns (c : Thread nD τ) (ms1 a t) fullShare ((dats m a 0 c).after 1 t)
    ∗ owns (c : Thread nD τ) (ms2 a t) fullShare ((dats m a 0 c).after 2 t)
    ∗ owns (c : Thread nD τ) (ms3 a t) fullShare ((dats m a 0 c).after 3 t)
    ∗ owns (c : Thread nD τ) (ms4 a t) fullShare ((dats m a 0 c).after 4 t)
    ∗ owns (c : Thread nD τ) (ms5 a t) fullShare ((dats m a 0 c).after 5 t))

/-- The body at any point: the inputs' buffers hold their blocks, so the run applies; the invariant passes
    through untouched; the core owes nothing throughout. -/
theorem sound_body (c : Dev nD) (t : Fin (cfg0 a).N) :
    bodyPre m a c t ⊢ wp frame (wpE (defs₀ (F := F)) Variants.none c none) Set.univ (bodyAt a t) (fun _ => bodyPost m a c t) := by
  unfold bodyPre bodyPost bodyAt
  simp only [before0, before1, before2, before3, before4]
  rw [show (dats m a 0 c).Φ t.succ = (dats m a 0 c).Φ t.castSucc from rfl,
    show (dats m a 0 c).owesAt () t.succ = (dats m a 0 c).owesAt () t.castSucc from rfl,
    after0, after1, after2, after3, after4, after5]
  unfold outAt
  unfold outOf
  iintro ⟨HΦ, Ho, ⟨%d0, H0⟩, ⟨%d1, H1⟩, ⟨%d2, H2⟩, ⟨%d3, H3⟩, ⟨%d4, H4⟩, ⟨%d5, H5⟩⟩
  iapply ((kernelRun c (grid0.coords t) _ _ _ _ _ _ _ _ _ _ _ _ _ _ (iblk m a c 0 t) (iblk m a c 1 t) (iblk m a c 2 t)
    (iblk m a c 3 t) (iblk m a c 4 t)).2 Set.univ _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, ⟨%e5, H5⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover_out c _ _ _ _ _ _ _ _ _ _ _ _ _ _ _ _ _ _ _ _)

/-- The body obligation at every point. -/
theorem body_obligation (c : Dev nD) :
    BodyObligation (dats (F := F) m a 0 c) (defs₀ (F := F)) Variants.none () Set.univ := fun t => by
  rw [bigSep_W0, bigSep_W0]
  exact sound_body m a c t

/-! ## The arrays dealt to the windows -/

/-- The four buffers behind the six windows, each held whole at the launch, are the six windows' arrays at the
    shares the proof data names: the weight table's full share is its left half (the first weight window) and its
    right half (the second), the bias table's likewise; the activations and the output are held whole. -/
theorem arrays_split (c : Dev nD) :
    (Pipeline.arrBufs (Ix := Unit) (Name := ℕ) (U := UR sig nD τ) (Lvl := ℕ) spec0 c (V m c) : sProp 𝕄)
      ⊢ (dats m a 0 c).arrays ((dats m a 0 c).arrAt · 0) := by
  have e : (dats m a 0 c).arrays ((dats m a 0 c).arrAt · 0)
      = bigSep Finset.univ fun w : Fin 6 => (((c.tc : Thread nD τ).loc (Pipeline.arrRef spec0 w)) ↦{(dats m a 0 c).share w}
          V m c (Pipeline.arrRef spec0 w) : sProp 𝕄) := by
    unfold Dat.arrays
    exact bigSep_congr fun w _ => by rw [(arr_whole0 w).set_eq_univ]; rfl
  rw [e, bigSep_W0]
  unfold Pipeline.arrBufs
  rw [bigSep_eq_bigSepL_of_eq [main_arg0, main_arg2, main_arg3, main_v1] (by decide) (by decide)]
  simp only [bigSepL_cons_cons, bigSepL_singleton]
  rw [show (dats m a 0 c).share 0 = fullShare from rfl, show (dats m a 0 c).share 1 = fullShare.left from rfl,
    show (dats m a 0 c).share 2 = fullShare.right from rfl, show (dats m a 0 c).share 3 = fullShare.left from rfl,
    show (dats m a 0 c).share 4 = fullShare.right from rfl, show (dats m a 0 c).share 5 = fullShare from rfl]
  show iprop((((c.tc : Thread nD τ).loc main_arg0) ↦{fullShare} V m c main_arg0)
      ∗ (((c.tc : Thread nD τ).loc main_arg2) ↦{fullShare} V m c main_arg2)
      ∗ (((c.tc : Thread nD τ).loc main_arg3) ↦{fullShare} V m c main_arg3)
      ∗ (((c.tc : Thread nD τ).loc main_v1) ↦{fullShare} V m c main_v1)) ⊢ _
  have s2 : ((((c.tc : Thread nD τ).loc main_arg2) ↦{fullShare} V m c main_arg2) : sProp 𝕄)
      ⊢ iprop((((c.tc : Thread nD τ).loc main_arg2) ↦{fullShare.left} V m c main_arg2)
          ∗ (((c.tc : Thread nD τ).loc main_arg2) ↦{fullShare.right} V m c main_arg2)) :=
    (pointsTo_share (PosShare.mem_left_op_right fullShare)).1
  have s3 : ((((c.tc : Thread nD τ).loc main_arg3) ↦{fullShare} V m c main_arg3) : sProp 𝕄)
      ⊢ iprop((((c.tc : Thread nD τ).loc main_arg3) ↦{fullShare.left} V m c main_arg3)
          ∗ (((c.tc : Thread nD τ).loc main_arg3) ↦{fullShare.right} V m c main_arg3)) :=
    (pointsTo_share (PosShare.mem_left_op_right fullShare)).1
  iintro ⟨H0, H2, H3, H5⟩
  ihave H2' := s2 $$ H2
  icases H2' with ⟨H2l, H2r⟩
  ihave H3' := s3 $$ H3
  icases H3' with ⟨H3l, H3r⟩
  isplitl [H0]; · iexact H0
  isplitl [H2l]; · iexact H2l
  isplitl [H2r]; · iexact H2r
  isplitl [H3l]; · iexact H3l
  isplitl [H3r]; · iexact H3r
  iexact H5

/-! ## The launch -/

/-- The run: for table contents `a` that are what the launch finds in scalar memory (`hpf`), every weakly fair
    execution of the program terminates without a fault; the output array ends at what the library computes from
    the proof data (the blocks the body left, written back point by point), and the four argument arrays end as
    they began. -/
theorem run_main (hpf : ∀ (c : Dev nD) (k : Fin 1), V m c (pre0.ref k) = a.1 k) :
    θ_run defs (onTc (τ := τ) (main (F := F))) ⟨m, fun _ => 0, ρ⟩ (fun r => ∀ c : Dev nD,
      r.2.mem ((c.tc : Thread nD τ).loc main_v1) = (dats m a 0 c).arrAt 5 (cfg0 a).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  classical
  exact Pipeline.θ_run_region_noSem_pf pcfgs (fun _ => a) (dats m a) () (cellOf_inj (fun _ => a)) (0 : Fin 1)
    winFacts₀0 preFacts0 emb₁ defs₀ Variants.none m ρ main
    (hbody := fun c => (body_obligation m a c).loose) (hne := block_pos0) (harr := arr_whole0) (hstage := stage_whole0)
    (howed := fun _ _ => rfl)
    (u₀ := initOf (Pipeline.cells (Pipeline.pin pcfgs fun _ => a) (cellOf_inj (fun _ => a)))
      (Pipeline.launchToks (Pipeline.pin pcfgs fun _ => a) (cellOf_inj (fun _ => a))))
    (hu₀ := .rfl)
    (V := V m) (hmain := hmain m Variants.none) (hsplit := arrays_split m a) (hpf := hpf)
    (X := fun _ => iprop(emp))
    (Y := fun c => Pipeline.prefHeld (Ix := Unit) (Name := ℕ) (U := UR sig nD τ) (Lvl := ℕ) pre0 c (fun _ => fullShare.right) a.1)
    (Z := fun c => Pipeline.unscopedRestP (Ix := Unit) (Name := ℕ) (U := UR sig nD τ) (Lvl := ℕ) pre0 spec0 c (V m c))
    (hX := fun c => by
      iintro H
      isplitr
      · iempintro
      iexact H)
    (hin := fun c => by
      show _ ⊢ iprop(Pipeline.prefHeld (Ix := Unit) (Name := ℕ) (U := UR sig nD τ) (Lvl := ℕ) pre0 c (fun _ => fullShare.right) a.1
        ∗ Pipeline.scopedRest (Ix := Unit) (Name := ℕ) (U := UR sig nD τ) (Lvl := ℕ) (Val := Elt F) spec0 c)
      iintro ⟨-, Ht, Hr⟩
      isplitl [Ht]
      · iexact Ht
      iexact Hr)
    (hout := fun c => by
      show iprop(Pipeline.prefHeld (Ix := Unit) (Name := ℕ) (U := UR sig nD τ) (Lvl := ℕ) pre0 c (fun _ => fullShare.right) a.1
        ∗ Pipeline.scopedRest (Ix := Unit) (Name := ℕ) (U := UR sig nD τ) (Lvl := ℕ) (Val := Elt F) spec0 c) ⊢ _
      exact .rfl)
    (QY := fun c s => ∀ b ∈ Pipeline.restRefsP sig pre0 spec0, s.mem ((c.tc : Thread nD τ).loc b) = V m c b)
    (hY := fun c s' => by
      iintro ⟨-, HU, HSI⟩
      unfold Pipeline.unscopedRestP
      imodintro
      iapply (pointsTo_read_all (Pipeline.restRefsP sig pre0 spec0) (fun b => (c.tc : Thread nD τ).loc b) (V m c) s')
      isplitl [HU] <;> iassumption)
    (hQ := fun s h c =>
      ⟨(h c).1 5,
       ((h c).1 0).trans (((dats m a 0 c).arrAt_in 0 rfl _).trans ((A_eq m a c 0).trans (V_main_arg0 m c))),
       ((h c).2.2 main_arg1 (by decide)).trans (V_main_arg1 m c),
       ((h c).1 1).trans (((dats m a 0 c).arrAt_in 1 rfl _).trans ((A_eq m a c 1).trans (V_main_arg2 m c))),
       ((h c).1 3).trans (((dats m a 0 c).arrAt_in 3 rfl _).trans ((A_eq m a c 3).trans (V_main_arg3 m c)))⟩)

/-! ## At the table the host computes -/

/-- The table the host computes, as admissible contents. -/
abbrev adm : (pcfg0 (F := F)).Adm := ⟨tbl m, ok_tbl m⟩

/-- The run at the host's table: the output array ends at the proof data's closed term, the arguments unchanged. -/
theorem run_tbl :
    θ_run defs (onTc (τ := τ) (main (F := F))) ⟨m, fun _ => 0, ρ⟩ (fun r => ∀ c : Dev nD,
      r.2.mem ((c.tc : Thread nD τ).loc main_v1) = (dats m (adm m) 0 c).arrAt 5 (cfg0 (adm m)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  run_main m ρ (adm m) (V_pre m)

/-- The frame: the program runs to the end, faults nowhere, and leaves its four argument arrays unchanged —
    for every launch memory, with no condition on the index words (the table is clipped before it is used). -/
theorem frame :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_tbl m ρ)

end Cert.KernelIdeal.Hand

end
-- ==== Proof.Spec.lean ====
/-
  What both programs compute, as one function of the four argument arrays.

  For each batch entry b the index word idx[b] selects a row r(b) of the two tables: the word read as a signed
  integer and clamped to the tables' 1024 rows. The result is, entry by entry,
      out[b, n, o] = (∑ k, x[b, n, k] · weight[r(b), k, o]) + bias[r(b), 0, o]
  over the extended reals.
-/
import Idealize.ShloMosaic.PureOps.Ideal
import Idealize.ShloMosaic.Lib.ValueIdx

noncomputable section

open scoped BigOperators

namespace Cert.Spec

open Idealize.ShloMosaic Idealize.ShloMosaic.ValueIdx

/-- The activations' shape, and the result's. -/
abbrev SX : Shape := ⟨3, ![256, 1024, 256]⟩
/-- The index vector's shape. -/
abbrev SI : Shape := ⟨1, ![256]⟩
/-- The weight table's shape. -/
abbrev SW : Shape := ⟨3, ![1024, 256, 256]⟩
/-- The bias table's shape. -/
abbrev SB : Shape := ⟨3, ![1024, 1, 256]⟩

/-- The table row an index word selects: the word as a signed integer, clamped to the rows `0 … 1023`. -/
def rowOf (v : BitVec 32) : Fin 1024 := ⟨min v.toInt.toNat 1023, by omega⟩

/-- The table row batch entry `b` selects. -/
def row (idx : IVec SI 32) (b : Fin 256) : Fin 1024 := rowOf (idx (ix1 b))

/-- One entry of the result: row `n` of batch entry `b` times the selected weight matrix's column `o`, plus
    the selected bias row's entry `o`. -/
def at3 (x : SX.Idx → EReal) (idx : IVec SI 32) (w : SW.Idx → EReal) (bias : SB.Idx → EReal)
    (b : Fin 256) (n : Fin 1024) (o : Fin 256) : EReal :=
  (∑ k : Fin 256, x (ix3 b n k) * w (ix3 (row idx b) k o)) + bias (ix3 (row idx b) (0 : Fin 1) o)

/-- The whole result array. -/
def G (x : SX.Idx → EReal) (idx : IVec SI 32) (w : SW.Idx → EReal) (bias : SB.Idx → EReal) : SX.Idx → EReal :=
  fun j => at3 x idx w bias (j 0) (j 1) (j 2)

theorem G_ix3 (x : SX.Idx → EReal) (idx : IVec SI 32) (w : SW.Idx → EReal) (bias : SB.Idx → EReal)
    (b : Fin 256) (n : Fin 1024) (o : Fin 256) : G x idx w bias (ix3 b n o) = at3 x idx w bias b n o := rfl

end Cert.Spec

end
-- ==== Proof.RefValue.lean ====
import proofs.«402202_j11982958756449_2_alg».proof.Proof.Gen.ReferenceIdeal.Read
import proofs.«402202_j11982958756449_2_alg».proof.Proof.Spec
import Idealize.ShloMosaic.Lib.ValueIdx
import Idealize.ShloMosaic.PureOps.Ideal

/-
  The reference program's result, read at the ideal instance, is the shared specification: entry (b, n, o) is the
  sum over k of x[b, n, k] · weight[r(b), k, o] plus bias[r(b), 0, o], where r(b) is the index word of batch entry b
  read as a signed integer and clamped to the tables' rows. The program first wraps a negative index word by adding
  1024; under the hypothesis that every index word is non-negative the wrap is the identity, so the two gathers read
  the tables at the row the word itself selects.
-/

noncomputable section

open scoped BigOperators

namespace Cert.ReferenceIdeal.RefValue

open Cert.ReferenceIdeal Cert.ReferenceIdeal.Gen Cert.ReferenceIdeal.Read Idealize.ShloMosaic Idealize.ShloMosaic.ValueIdx

/-- The weight gather read at (b, k, o): the weight table at the row the start word of batch entry b selects
    (the word read signed and clamped to the rows 0 … 1023), at (k, o). Axis 0 of the table is collapsed and
    start-indexed with slice size 1, so its coordinate is the clamped start; axes 1 and 2 are whole-axis offsets. -/
theorem gather_w_read {α : Type} (x : S1024x256x256.Idx → α) (idx : IVec S256x1 32) (b : Fin 256) (k : Fin 256) (o : Fin 256) :
    Host.gather gather_S1024x256x256_S256x1_S256x256x256_12_0_n_n_0_1_1256256 x idx (ix3 b k o)
      = x (ix3 (Cert.Spec.rowOf (idx (ix2 b (0 : Fin 1)))) k o) := by
  unfold Host.gather
  congr 1
  funext a
  refine Fin.ext ?_
  match a with
  | ⟨0, _⟩ =>
    show gather_S1024x256x256_S256x1_S256x256x256_12_0_n_n_0_1_1256256.start (ix3 b k o) idx 0
        + gather_S1024x256x256_S256x1_S256x256x256_12_0_n_n_0_1_1256256.batchCoord (ix3 b k o) 0
        + gather_S1024x256x256_S256x1_S256x256x256_12_0_n_n_0_1_1256256.offCoord (ix3 b k o) 0 = _
    rw [GatherDims.batchCoord_eq_zero _ _ _ (by decide), GatherDims.offCoord_eq_zero _ _ _ (by decide)]
    simp only [Nat.add_zero]
    unfold GatherDims.start
    rw [dif_pos (show (0 : Fin 3) ∈ gather_S1024x256x256_S256x1_S256x256x256_12_0_n_n_0_1_1256256.startIndexMap by decide)]
    have hsi : gather_S1024x256x256_S256x1_S256x256x256_12_0_n_n_0_1_1256256.siIdx (ix3 b k o)
        ⟨List.idxOf (0 : Fin 3) gather_S1024x256x256_S256x1_S256x256x256_12_0_n_n_0_1_1256256.startIndexMap,
          List.idxOf_lt_length_iff.2 (by decide)⟩ = ix2 b (0 : Fin 1) := by
      funext c; refine Fin.ext ?_
      match c with
      | ⟨0, _⟩ => rfl
      | ⟨1, _⟩ => rfl
    rw [hsi]
    rfl
  | ⟨1, _⟩ =>
    show gather_S1024x256x256_S256x1_S256x256x256_12_0_n_n_0_1_1256256.start (ix3 b k o) idx 1
        + gather_S1024x256x256_S256x1_S256x256x256_12_0_n_n_0_1_1256256.batchCoord (ix3 b k o) 1
        + gather_S1024x256x256_S256x1_S256x256x256_12_0_n_n_0_1_1256256.offCoord (ix3 b k o) 1 = k.val
    rw [GatherDims.batchCoord_eq_zero _ _ _ (by decide)]
    unfold GatherDims.start
    rw [dif_neg (show ¬(1 : Fin 3) ∈ gather_S1024x256x256_S256x1_S256x256x256_12_0_n_n_0_1_1256256.startIndexMap by decide)]
    unfold GatherDims.offCoord
    rw [dif_pos (show (1 : Fin 3) ∈ gather_S1024x256x256_S256x1_S256x256x256_12_0_n_n_0_1_1256256.sKept by decide)]
    simp only [Nat.zero_add]
    rfl
  | ⟨2, _⟩ =>
    show gather_S1024x256x256_S256x1_S256x256x256_12_0_n_n_0_1_1256256.start (ix3 b k o) idx 2
        + gather_S1024x256x256_S256x1_S256x256x256_12_0_n_n_0_1_1256256.batchCoord (ix3 b k o) 2
        + gather_S1024x256x256_S256x1_S256x256x256_12_0_n_n_0_1_1256256.offCoord (ix3 b k o) 2 = o.val
    rw [GatherDims.batchCoord_eq_zero _ _ _ (by decide)]
    unfold GatherDims.start
    rw [dif_neg (show ¬(2 : Fin 3) ∈ gather_S1024x256x256_S256x1_S256x256x256_12_0_n_n_0_1_1256256.startIndexMap by decide)]
    unfold GatherDims.offCoord
    rw [dif_pos (show (2 : Fin 3) ∈ gather_S1024x256x256_S256x1_S256x256x256_12_0_n_n_0_1_1256256.sKept by decide)]
    simp only [Nat.zero_add]
    rfl

/-- The bias gather read at (b, 0, o): the bias table at the row the start word of batch entry b selects, at (0, o). -/
theorem gather_b_read {α : Type} (x : S1024x1x256.Idx → α) (idx : IVec S256x1 32) (b : Fin 256) (z : Fin 1) (o : Fin 256) :
    Host.gather gather_S1024x1x256_S256x1_S256x1x256_12_0_n_n_0_1_11256 x idx (ix3 b z o)
      = x (ix3 (Cert.Spec.rowOf (idx (ix2 b (0 : Fin 1)))) z o) := by
  unfold Host.gather
  congr 1
  funext a
  refine Fin.ext ?_
  match a with
  | ⟨0, _⟩ =>
    show gather_S1024x1x256_S256x1_S256x1x256_12_0_n_n_0_1_11256.start (ix3 b z o) idx 0
        + gather_S1024x1x256_S256x1_S256x1x256_12_0_n_n_0_1_11256.batchCoord (ix3 b z o) 0
        + gather_S1024x1x256_S256x1_S256x1x256_12_0_n_n_0_1_11256.offCoord (ix3 b z o) 0 = _
    rw [GatherDims.batchCoord_eq_zero _ _ _ (by decide), GatherDims.offCoord_eq_zero _ _ _ (by decide)]
    simp only [Nat.add_zero]
    unfold GatherDims.start
    rw [dif_pos (show (0 : Fin 3) ∈ gather_S1024x1x256_S256x1_S256x1x256_12_0_n_n_0_1_11256.startIndexMap by decide)]
    have hsi : gather_S1024x1x256_S256x1_S256x1x256_12_0_n_n_0_1_11256.siIdx (ix3 b z o)
        ⟨List.idxOf (0 : Fin 3) gather_S1024x1x256_S256x1_S256x1x256_12_0_n_n_0_1_11256.startIndexMap,
          List.idxOf_lt_length_iff.2 (by decide)⟩ = ix2 b (0 : Fin 1) := by
      funext c; refine Fin.ext ?_
      match c with
      | ⟨0, _⟩ => rfl
      | ⟨1, _⟩ => rfl
    rw [hsi]
    rfl
  | ⟨1, _⟩ =>
    show gather_S1024x1x256_S256x1_S256x1x256_12_0_n_n_0_1_11256.start (ix3 b z o) idx 1
        + gather_S1024x1x256_S256x1_S256x1x256_12_0_n_n_0_1_11256.batchCoord (ix3 b z o) 1
        + gather_S1024x1x256_S256x1_S256x1x256_12_0_n_n_0_1_11256.offCoord (ix3 b z o) 1 = z.val
    rw [GatherDims.batchCoord_eq_zero _ _ _ (by decide)]
    unfold GatherDims.start
    rw [dif_neg (show ¬(1 : Fin 3) ∈ gather_S1024x1x256_S256x1_S256x1x256_12_0_n_n_0_1_11256.startIndexMap by decide)]
    unfold GatherDims.offCoord
    rw [dif_pos (show (1 : Fin 3) ∈ gather_S1024x1x256_S256x1_S256x1x256_12_0_n_n_0_1_11256.sKept by decide)]
    simp only [Nat.zero_add]
    rfl
  | ⟨2, _⟩ =>
    show gather_S1024x1x256_S256x1_S256x1x256_12_0_n_n_0_1_11256.start (ix3 b z o) idx 2
        + gather_S1024x1x256_S256x1_S256x1x256_12_0_n_n_0_1_11256.batchCoord (ix3 b z o) 2
        + gather_S1024x1x256_S256x1_S256x1x256_12_0_n_n_0_1_11256.offCoord (ix3 b z o) 2 = o.val
    rw [GatherDims.batchCoord_eq_zero _ _ _ (by decide)]
    unfold GatherDims.start
    rw [dif_neg (show ¬(2 : Fin 3) ∈ gather_S1024x1x256_S256x1_S256x1x256_12_0_n_n_0_1_11256.startIndexMap by decide)]
    unfold GatherDims.offCoord
    rw [dif_pos (show (2 : Fin 3) ∈ gather_S1024x1x256_S256x1_S256x1x256_12_0_n_n_0_1_11256.sKept by decide)]
    simp only [Nat.zero_add]
    rfl

/-- A word that is non-negative as a signed integer is not below zero in the signed order. -/
theorem slt_zero_of_nonneg (v : BitVec 32) (h : 0 ≤ v.toInt) : IntOp.cmpi .slt v 0#32 = 0#1 := by
  have : v.slt 0#32 = false := by
    simp only [BitVec.slt, BitVec.toInt_zero, decide_eq_false_iff_not, not_lt]
    exact h
  simp only [IntOp.cmpi, this]
  rfl

/-- The wrapped index word of batch entry b is the index word itself when that word is non-negative. -/
theorem start_w (x1 : (⟨S256, .i32⟩ : BufTy).Contents (Elt Ideal)) (hidx : ∀ i : S256.Idx, 0 ≤ (x1 i).toInt) (b : Fin 256) :
    val_main_v5 (F := Ideal) x1 (ix2 b (0 : Fin 1)) = x1 (ix1 b) := by
  have e : idx_main_v5 (ix2 b (0 : Fin 1)) = ix1 b := funext fun a => Fin.ext (by match a with | ⟨0, _⟩ => rfl)
  rw [val_main_v5_apply, e, val_main_v4_apply, val_main_v1_apply, val_main_v0_apply, val_main_c_apply,
    slt_zero_of_nonneg _ (hidx _), select_zero]

/-- The same for the second copy of the wrap, which feeds the bias gather. -/
theorem start_b (x1 : (⟨S256, .i32⟩ : BufTy).Contents (Elt Ideal)) (hidx : ∀ i : S256.Idx, 0 ≤ (x1 i).toInt) (b : Fin 256) :
    val_main_v12 (F := Ideal) x1 (ix2 b (0 : Fin 1)) = x1 (ix1 b) := by
  have e : idx_main_v12 (ix2 b (0 : Fin 1)) = ix1 b := funext fun a => Fin.ext (by match a with | ⟨0, _⟩ => rfl)
  rw [val_main_v12_apply, e, val_main_v11_apply, val_main_v8_apply, val_main_v7_apply, val_main_c_1_apply,
    slt_zero_of_nonneg _ (hidx _), select_zero]

/-- The gathered weights at (b, k, o): the weight table at the row batch entry b's index word selects. -/
theorem gather_w_apply (x1 : (⟨S256, .i32⟩ : BufTy).Contents (Elt Ideal)) (x2 : (⟨S1024x256x256, .f32⟩ : BufTy).Contents (Elt Ideal))
    (hidx : ∀ i : S256.Idx, 0 ≤ (x1 i).toInt) (b k o : Fin 256) :
    val_main_v6 (F := Ideal) x1 x2 (ix3 b k o) = x2 (ix3 (Cert.Spec.rowOf (x1 (ix1 b))) k o) := by
  unfold val_main_v6
  rw [gather_w_read, start_w x1 hidx b]

/-- The gathered bias at (b, 0, o): the bias table at the row batch entry b's index word selects. -/
theorem gather_b_apply (x1 : (⟨S256, .i32⟩ : BufTy).Contents (Elt Ideal)) (x3 : (⟨S1024x1x256, .f32⟩ : BufTy).Contents (Elt Ideal))
    (hidx : ∀ i : S256.Idx, 0 ≤ (x1 i).toInt) (b o : Fin 256) :
    val_main_v13 (F := Ideal) x1 x3 (ix3 b (0 : Fin 1) o) = x3 (ix3 (Cert.Spec.rowOf (x1 (ix1 b))) (0 : Fin 1) o) := by
  unfold val_main_v13
  rw [gather_b_read, start_b x1 hidx b]

/-- The reference's result is the specification, entry by entry, when every index word is non-negative. -/
theorem ref_is_spec (x0 : (⟨S256x1024x256, .f32⟩ : BufTy).Contents (Elt Ideal)) (x1 : (⟨S256, .i32⟩ : BufTy).Contents (Elt Ideal))
    (x2 : (⟨S1024x256x256, .f32⟩ : BufTy).Contents (Elt Ideal)) (x3 : (⟨S1024x1x256, .f32⟩ : BufTy).Contents (Elt Ideal))
    (hidx : ∀ i : S256.Idx, 0 ≤ (x1 i).toInt) :
    val_main_v16 (F := Ideal) x0 x1 x2 x3 = Cert.Spec.G x0 x1 x2 x3 := by
  funext j
  obtain ⟨b, n, o, rfl⟩ : ∃ (b : Fin 256) (n : Fin 1024) (o : Fin 256), j = ix3 b n o := ⟨j 0, j 1, j 2, eq_ix3 j⟩
  have el : ∀ k : Fin 256, lidx_main_v14 (ix3 b n o) k = ix3 b n k := fun k => funext fun a => Fin.ext (by
    match a with | ⟨0, _⟩ => rfl | ⟨1, _⟩ => rfl | ⟨2, _⟩ => rfl)
  have er : ∀ k : Fin 256, ridx_main_v14 (ix3 b n o) k = ix3 b k o := fun k => funext fun a => Fin.ext (by
    match a with | ⟨0, _⟩ => rfl | ⟨1, _⟩ => rfl | ⟨2, _⟩ => rfl)
  have eb : idx_main_v15 (ix3 b n o) = ix3 b (0 : Fin 1) o := funext fun a => Fin.ext (by
    match a with | ⟨0, _⟩ => rfl | ⟨1, _⟩ => rfl | ⟨2, _⟩ => rfl)
  rw [val_main_v16_apply, val_main_v14_apply, val_main_v15_apply, eb, gather_b_apply x1 x3 hidx b o, Ideal.addf_def]
  simp only [el, er, gather_w_apply x1 x2 hidx b _ o]
  rfl

end Cert.ReferenceIdeal.RefValue

end
-- ==== Proof.PreIdx.lean ====
import proofs.«402202_j11982958756449_2_alg».proof.Proof.Gen.Pre_finite_inputs
import Idealize.ShloMosaic.Lib.ReduceAll
import Idealize.ShloMosaic.Lib.StableHlo.Predicate
import Idealize.ShloMosaic.Lib.ValueIdx
import Idealize.ShloMosaic.Lib.Affine

/-!
  The precondition's last conjunct, read back: the predicate is the conjunction of three all-finite tests of the
  float arrays and of "every index word is at least zero, compared signed". If the predicate is 1, every one of the
  256 index words is non-negative as a signed integer.
-/

namespace Cert.Pre_finite_inputs.PreIdx

open Idealize.ShloMosaic Cert.Pre_finite_inputs

/-- The rank-0 shape has exactly one index. -/
instance : Subsingleton S_.Idx := ⟨fun a b => funext fun d => d.elim0⟩

/-- The scalar zero broadcast along the 256 positions reads zero at each of them. -/
theorem zero_bcast_apply [Facts] (i : S256.Idx) :
    broadcastInDim S256 ![] Facts.bcast_S_S256 (constantI S_ 32 0#32) i = 0#32 := rfl

/-- If the precondition holds (the printed predicate is 1 at its one index), then every index word is non-negative
    as a signed 32-bit integer: the predicate's last conjunct is the and-reduction over all 256 positions of the
    signed comparison "index ≥ 0". -/
theorem idx_nonneg_of_pre {F : FTy → Type} [FloatOps F] [Cert.Pre_finite_inputs.Facts]
    (x0 : FVec F S256x1024x256 .f32) (x1 : IVec S256 32) (x2 : FVec F S1024x256x256 .f32) (x3 : FVec F S1024x1x256 .f32)
    (h : Cert.Pre_finite_inputs.fn (F := F) x0 x1 x2 x3 = fun _ => 1#1) : ∀ i : S256.Idx, 0 ≤ (x1 i).toInt := by
  intro i
  -- the predicate at its one index
  have h0 := congrFun h ValueIdx.ix0
  dsimp only [fn, fn_part1] at h0
  -- the outer conjunction: keep its second half, the reduction over the index comparison
  have h1 := (IntOp.andi_eq_one.1 h0).2
  -- a reduction by "and" over every axis that came out 1 met a 1 at every position
  have h2 := Host.reduce_andi_all _ _ _ _ _ h1 i
  -- the comparison at position i, read signed
  have h3 := IntOp.cmpi_sge.1 h2
  rw [zero_bcast_apply] at h3
  simpa using h3

end Cert.Pre_finite_inputs.PreIdx
-- ==== Proof.Claims.lean ====
/-
  The five claims, assembled.

  Frames: the kernel program (at the word-level and at the ideal instance) runs to the end and leaves its
  arguments unchanged for every launch memory; the reference's frame is its run with the result dropped.
  Equivalence: at the ideal instance both programs end with out[b, n, o] = (∑ k, x[b, n, k] · weight[r(b), k, o])
  + bias[r(b), 0, o], r(b) the index word of batch entry b read signed and clamped to the tables' rows. The kernel
  clips the word to 0 … 1023 before it is used as a block index, which is that clamp for every word; the
  reference first adds 1024 to a negative word and then clamps, which is that clamp exactly when the word is not
  negative — the one place the precondition is used.
-/
import proofs.«402202_j11982958756449_2_alg».proof.Defs
import proofs.«402202_j11982958756449_2_alg».proof.Proof.Gen.Pre_finite_inputs
import proofs.«402202_j11982958756449_2_alg».proof.Proof.Gen.ReferenceIdeal.Run
import proofs.«402202_j11982958756449_2_alg».proof.Proof.Gen.ReferenceIdeal.Read
import proofs.«402202_j11982958756449_2_alg».proof.Proof.KFrame
import proofs.«402202_j11982958756449_2_alg».proof.Proof.KiFrame
import proofs.«402202_j11982958756449_2_alg».proof.Proof.RefValue
import proofs.«402202_j11982958756449_2_alg».proof.Proof.PreIdx
import proofs.«402202_j11982958756449_2_alg».proof.Proof.Spec

noncomputable section

namespace Cert.Proof.Claims

open Idealize.ShloMosaic Idealize.ShloMosaic.TcCoe Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: there is no entry to state. -/
theorem preserves : Cert.preserves_Kernel_KernelIdeal := trivial

open Cert.KernelIdeal Cert.KernelIdeal.Hand in
/-- The two programs agree at the ideal instance, given what the kernel's output array ends with (`hfinal`: the
    specification, for the table the host computes). -/
theorem algebraic_of_final
    (hfinal : ∀ (m : (ℓ : Loc Cert.KernelIdeal.nD Cert.KernelIdeal.τ Cert.KernelIdeal.sig) → Buf (Elt Ideal) ℓ) (c : Dev Cert.KernelIdeal.nD),
      ((dats m (adm m) 0 c).arrAt 5 (cfg0 (adm m)).N : Cert.KernelIdeal.S256x1024x256.Idx → EReal)
        = Cert.Spec.G (m ((c : Thread nD τ).loc main_arg0)) (m ((c : Thread nD τ).loc main_arg1))
            (m ((c : Thread nD τ).loc main_arg2)) (m ((c : Thread nD τ).loc main_arg3))) :
    Cert.algebraic_KernelIdeal_ReferenceIdeal := by
  intro m ρ m' ρ' hpre hagree
  refine ⟨fun c => Cert.Spec.G (m ((c : Thread nD τ).loc main_arg0)) (m ((c : Thread nD τ).loc main_arg1))
      (m ((c : Thread nD τ).loc main_arg2)) (m ((c : Thread nD τ).loc main_arg3)), ?_, ?_⟩
  · exact (θ_run Cert.KernelIdeal.defs _ _).mono (fun _ h c => ⟨(h c).1.trans (hfinal m c), (h c).2⟩)
      (Cert.KernelIdeal.Hand.run_tbl m ρ)
  · refine (θ_run Cert.ReferenceIdeal.defs _ _).mono (fun _ h c => ⟨?_, (h c).2⟩)
      (Cert.ReferenceIdeal.Value.run (F := Ideal) m' ρ')
    have hidx : ∀ i : Cert.ReferenceIdeal.S256.Idx,
        0 ≤ ((m' ((c.tc : Thread Cert.ReferenceIdeal.nD Cert.ReferenceIdeal.τ).loc Cert.ReferenceIdeal.main_arg1)) i).toInt := by
      rw [(hagree c).2.1]
      exact Cert.Pre_finite_inputs.PreIdx.idx_nonneg_of_pre _ _ _ _ (hpre c)
    rw [(h c).1, Cert.ReferenceIdeal.Read.val_main_v16_eq, Cert.ReferenceIdeal.RefValue.ref_is_spec _ _ _ _ hidx,
      (hagree c).1, (hagree c).2.1, (hagree c).2.2.1, (hagree c).2.2.2]

end Cert.Proof.Claims

end
-- ==== Proof.KiIndex.lean ====
import proofs.«402202_j11982958756449_2_alg».proof.Proof.KiEntry
import proofs.«402202_j11982958756449_2_alg».proof.Proof.Spec
import Idealize.ShloMosaic.Lib.ValueIdx

/-!
  The word and index-map arithmetic of the launch.

  * The clipped index word min(1023, max(0, v)), signed, is as a number the specification's table row of v, for
    every word v: a negative word gives row 0, a word above 1023 gives row 1023.
  * At grid point t (t ≤ 127) the activation and result windows take block (t, 0, 0); the two table-indexed
    windows of slab r (r = 0, 1) take block (tbl[2·t + r], 0, 0): the position 2·t + r is at most 255, so the
    minimum with 255 changes nothing and no word wraps.
-/

namespace Cert.KernelIdeal.Hand

open Cert.KernelIdeal Cert.KernelIdeal.Gen Idealize.ShloMosaic Idealize.ShloMosaic.ValueIdx

variable {F : FTy → Type} [FloatOps F]

/-! ## The clipped word is the specification's row -/

/-- The clipped word, as a number, is the specification's row for EVERY word (negative → 0, above 1023 → 1023). -/
theorem clipWord_toNat (v : BitVec 32) : (clipWord v).toNat = (Cert.Spec.rowOf v).val := by
  have hv := BitVec.toInt_eq_toNat_cond v
  have hlt := v.isLt
  have e0 : (0#32 : BitVec 32).toInt = 0 := by decide
  have e1 : (1023#32 : BitVec 32).toInt = 1023 := by decide
  have n0 : (0#32 : BitVec 32).toNat = 0 := by decide
  have n1 : (1023#32 : BitVec 32).toNat = 1023 := by decide
  show _ = min v.toInt.toNat 1023
  unfold clipWord IntOp.minsi IntOp.maxsi
  simp only [BitVec.slt]
  split_ifs with h1 h2 h2
  all_goals simp only [decide_eq_true_eq, not_lt, e0, e1] at *
  all_goals first
    | (rw [n1]; split at hv <;> omega)
    | (rw [n0]; split at hv <;> omega)
    | (split at hv <;> omega)

/-! ## The windows that do not read the table -/

/-- The activation window at grid point t takes block (t, 0, 0). -/
theorem transform0_eq (i : grid0.Coords) : cc0_transform_0 i = ![(i 0).val, 0, 0] := by
  have hi : (i 0).val < 128 := (i 0).isLt
  funext a
  match a with
  | ⟨0, _⟩ =>
    show (BitVec.ofNat 32 (i 0).val).toNat = (i 0).val
    rw [BitVec.toNat_ofNat]; exact Nat.mod_eq_of_lt (by omega)
  | ⟨1, _⟩ => rfl
  | ⟨2, _⟩ => rfl

/-- The result window at grid point t takes block (t, 0, 0). -/
theorem transform5_eq (i : grid0.Coords) : cc0_transform_5 i = ![(i 0).val, 0, 0] := by
  have hi : (i 0).val < 128 := (i 0).isLt
  funext a
  match a with
  | ⟨0, _⟩ =>
    show (BitVec.ofNat 32 (i 0).val).toNat = (i 0).val
    rw [BitVec.toNat_ofNat]; exact Nat.mod_eq_of_lt (by omega)
  | ⟨1, _⟩ => rfl
  | ⟨2, _⟩ => rfl

/-! ## The table position, and the table read -/

/-- The table position the two table-indexed index maps of slab r read: 2·t + r (t ≤ 127, so the min with 255 is idle
    and nothing wraps). -/
theorem off1_eq (i : grid0.Coords) (r : Fin 2) : k0_off1 i (BitVec.ofNat 32 r.val) = ![2 * (i 0).val + r.val] :=
  k0_off1_eq i r

/-- The one element of a one-entry unit rectangle of the table that starts at position k is the table's index k. -/
theorem unit_emb_first (off : Fin 1 → Nat) (inb : ∀ a, off a + S1.size a ≤ S256.size a)
    (h0 : 0 < (Rect.unit (s := S256) off S1.size inb).shape.numel) (k : Nat) (hk : off 0 = k) (hlt : k < 256) :
    (Rect.unit (s := S256) off S1.size inb).emb (Shape.Idx.first h0) = ix1 ⟨k, hlt⟩ := by
  funext a
  match a with
  | ⟨0, h⟩ =>
    apply Fin.ext
    rw [Rect.emb_apply]
    have hj : (Shape.Idx.first h0 ⟨0, h⟩).val < 1 := (Shape.Idx.first h0 ⟨0, h⟩).isLt
    have ho : off ⟨0, h⟩ = k := hk
    show off ⟨0, h⟩ + 1 * (Shape.Idx.first h0 ⟨0, h⟩).val = k
    omega

/-! ## The table-indexed windows -/

/-- The first weight window at grid point t takes block (tbl[2·t], 0, 0). -/
theorem transform1_eq (pf : pre0.Contents (Elt F)) (i : grid0.Coords) :
    cc0_transform_1 k0_off1_inb numel1_S1 pf i
      = ![((pf 0 : S256.Idx → BitVec 32) (ix1 ⟨2 * (i 0).val, by have hi : (i 0).val < 128 := (i 0).isLt; omega⟩)).toNat, 0, 0] := by
  funext a
  match a with
  | ⟨0, _⟩ =>
    have hk : k0_off1 i (BitVec.ofNat 32 (0 : Fin 2).val) 0 = 2 * (i 0).val := by rw [off1_eq]; rfl
    exact congrArg (fun j => ((pf 0 : S256.Idx → BitVec 32) j).toNat) (unit_emb_first _ _ _ _ hk _)
  | ⟨1, _⟩ => rfl
  | ⟨2, _⟩ => rfl

/-- The second weight window at grid point t takes block (tbl[2·t + 1], 0, 0). -/
theorem transform2_eq (pf : pre0.Contents (Elt F)) (i : grid0.Coords) :
    cc0_transform_2 k0_off1_inb numel1_S1 pf i
      = ![((pf 0 : S256.Idx → BitVec 32) (ix1 ⟨2 * (i 0).val + 1, by have hi : (i 0).val < 128 := (i 0).isLt; omega⟩)).toNat, 0, 0] := by
  funext a
  match a with
  | ⟨0, _⟩ =>
    have hk : k0_off1 i (BitVec.ofNat 32 (1 : Fin 2).val) 0 = 2 * (i 0).val + 1 := by rw [off1_eq]; rfl
    exact congrArg (fun j => ((pf 0 : S256.Idx → BitVec 32) j).toNat) (unit_emb_first _ _ _ _ hk _)
  | ⟨1, _⟩ => rfl
  | ⟨2, _⟩ => rfl

/-- The first bias window at grid point t takes block (tbl[2·t], 0, 0). -/
theorem transform3_eq (pf : pre0.Contents (Elt F)) (i : grid0.Coords) :
    cc0_transform_3 k0_off1_inb numel1_S1 pf i
      = ![((pf 0 : S256.Idx → BitVec 32) (ix1 ⟨2 * (i 0).val, by have hi : (i 0).val < 128 := (i 0).isLt; omega⟩)).toNat, 0, 0] := by
  funext a
  match a with
  | ⟨0, _⟩ =>
    have hk : k0_off1 i (BitVec.ofNat 32 (0 : Fin 2).val) 0 = 2 * (i 0).val := by rw [off1_eq]; rfl
    exact congrArg (fun j => ((pf 0 : S256.Idx → BitVec 32) j).toNat) (unit_emb_first _ _ _ _ hk _)
  | ⟨1, _⟩ => rfl
  | ⟨2, _⟩ => rfl

/-- The second bias window at grid point t takes block (tbl[2·t + 1], 0, 0). -/
theorem transform4_eq (pf : pre0.Contents (Elt F)) (i : grid0.Coords) :
    cc0_transform_4 k0_off1_inb numel1_S1 pf i
      = ![((pf 0 : S256.Idx → BitVec 32) (ix1 ⟨2 * (i 0).val + 1, by have hi : (i 0).val < 128 := (i 0).isLt; omega⟩)).toNat, 0, 0] := by
  funext a
  match a with
  | ⟨0, _⟩ =>
    have hk : k0_off1 i (BitVec.ofNat 32 (1 : Fin 2).val) 0 = 2 * (i 0).val + 1 := by rw [off1_eq]; rfl
    exact congrArg (fun j => ((pf 0 : S256.Idx → BitVec 32) j).toNat) (unit_emb_first _ _ _ _ hk _)
  | ⟨1, _⟩ => rfl
  | ⟨2, _⟩ => rfl

end Cert.KernelIdeal.Hand
-- ==== Proof.PayValue.lean ====
import proofs.«402202_j11982958756449_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

/-!
  The kernel body's stored value, read at an index, at the ideal (extended-real) values.

  The body computes, for each of its two row blocks, a [1024 × 256] by [256 × 256] matrix product into a zero accumulator
  and adds one bias row to every row of the product. At the ideal values a change of float format is the identity and the
  product into zero is the plain sum over the contracted axis, so the entry at row n, column o is
  (∑ k, x[n, k] · w[k, o]) + bias[o].
-/

namespace Cert.KernelIdeal.PayValue

open Cert.KernelIdeal Cert.KernelIdeal.Gen Idealize.ShloMosaic Idealize.ShloMosaic.ValueIdx

/-! ## The operand indices of the matrix product: rows × contraction times contraction × columns -/

/-- The left operand's row is the output's row. -/
theorem lhs_axis0 (i : S1024x256.Idx) (q : dot_S1024x256_S256x256_S1024x256_1_0_0_1_n_n.contr.Idx) :
    (dot_S1024x256_S256x256_S1024x256_1_0_0_1_n_n.lhsIdx i q 0).val = (i 0).val := by
  unfold DotDims.lhsIdx
  rw [dif_neg (show ¬(0 : Fin S1024x256.rank) ∈ dot_S1024x256_S256x256_S1024x256_1_0_0_1_n_n.lhsBatch by decide), dif_pos (show (0 : Fin S1024x256.rank) ∈ dot_S1024x256_S256x256_S1024x256_1_0_0_1_n_n.lhsNonContracting by decide)]
  rfl

/-- The left operand's column is the contraction position. -/
theorem lhs_axis1 (i : S1024x256.Idx) (q : dot_S1024x256_S256x256_S1024x256_1_0_0_1_n_n.contr.Idx) :
    (dot_S1024x256_S256x256_S1024x256_1_0_0_1_n_n.lhsIdx i q 1).val = (q ⟨0, by decide⟩).val :=
  dot_S1024x256_S256x256_S1024x256_1_0_0_1_n_n.lhsIdx_val_of_single rfl i q

/-- The right operand's row is the contraction position. -/
theorem rhs_axis0 (i : S1024x256.Idx) (q : dot_S1024x256_S256x256_S1024x256_1_0_0_1_n_n.contr.Idx) :
    (dot_S1024x256_S256x256_S1024x256_1_0_0_1_n_n.rhsIdx i q 0).val = (q ⟨0, by decide⟩).val :=
  dot_S1024x256_S256x256_S1024x256_1_0_0_1_n_n.rhsIdx_val_of_single rfl i q

/-- The right operand's column is the output's column. -/
theorem rhs_axis1 (i : S1024x256.Idx) (q : dot_S1024x256_S256x256_S1024x256_1_0_0_1_n_n.contr.Idx) :
    (dot_S1024x256_S256x256_S1024x256_1_0_0_1_n_n.rhsIdx i q 1).val = (i 1).val := by
  unfold DotDims.rhsIdx
  rw [dif_neg (show ¬(1 : Fin S256x256.rank) ∈ dot_S1024x256_S256x256_S1024x256_1_0_0_1_n_n.rhsBatch by decide), dif_pos (show (1 : Fin S256x256.rank) ∈ dot_S1024x256_S256x256_S1024x256_1_0_0_1_n_n.rhsNonContracting by decide)]
  rfl

/-- The matrix product into the zero accumulator, at row n and column o, is the sum over the contracted axis of the
    operands' products: no rounding and no order of accumulation is left at the ideal values. -/
theorem matmul_zero_apply (a : FVec Ideal S1024x256 .bf16) (b : FVec Ideal S256x256 .bf16) (n : Fin 1024) (o : Fin 256) :
    matmul dot_S1024x256_S256x256_S1024x256_1_0_0_1_n_n none a b (constant (F := Ideal) S1024x256 .f32 0x00000000#32) (ix2 n o)
      = ∑ k : Fin 256, a (ix2 n k) * b (ix2 k o) := by
  simp only [matmul]
  rw [Ideal.matmul_constant_zero_apply, ← Equiv.sum_comp (contrEquiv1 dot_S1024x256_S256x256_S1024x256_1_0_0_1_n_n 256 rfl rfl).symm]
  refine Finset.sum_congr rfl fun k _ => ?_
  have hk := contrEquiv1_symm_val dot_S1024x256_S256x256_S1024x256_1_0_0_1_n_n 256 rfl rfl k
  have el : dot_S1024x256_S256x256_S1024x256_1_0_0_1_n_n.lhsIdx (ix2 n o) ((contrEquiv1 dot_S1024x256_S256x256_S1024x256_1_0_0_1_n_n 256 rfl rfl).symm k) = ix2 n k := funext fun c => Fin.ext (by
    match c with
    | ⟨0, _⟩ => exact lhs_axis0 _ _
    | ⟨1, _⟩ => exact (lhs_axis1 _ _).trans hk)
  have er : dot_S1024x256_S256x256_S1024x256_1_0_0_1_n_n.rhsIdx (ix2 n o) ((contrEquiv1 dot_S1024x256_S256x256_S1024x256_1_0_0_1_n_n 256 rfl rfl).symm k) = ix2 k o := funext fun c => Fin.ext (by
    match c with
    | ⟨0, _⟩ => exact (rhs_axis0 _ _).trans hk
    | ⟨1, _⟩ => exact rhs_axis1 _ _)
  rw [el, er]

/-! ## The stored values -/

/-- The first stored block at (0, n, o): the row n of the activations against the column o of the weights, plus the
    bias at column o. -/
theorem pay1_apply (v0 : Vec Ideal S1x1024x256 .f32) (v3 : Vec Ideal S1x256x256 .f32) (v7 : Vec Ideal S1x1x256 .f32) (n : Fin 1024) (o : Fin 256) :
    k0_pay1 (F := Ideal) v0 v3 v7 (ix3 (0 : Fin 1) n o)
      = (∑ k : Fin 256, v0 (ix3 (0 : Fin 1) n k) * v3 (ix3 (0 : Fin 1) k o)) + v7 (ix3 (0 : Fin 1) (0 : Fin 1) o) := by
  unfold k0_pay1
  rw [shapeCast_ab_1ab_apply, addf_apply, matmul_zero_apply, broadcastTo_1b_ab_apply, shapeCast_1ab_ab_apply]
  congr 1
  refine Finset.sum_congr rfl fun k _ => ?_
  rw [truncf_apply, truncf_apply, shapeCast_1ab_ab_apply, shapeCast_1ab_ab_apply]

/-- The second stored block is the same operations on its own loads. -/
theorem pay2_eq_pay1 (v14 : Vec Ideal S1x1024x256 .f32) (v17 : Vec Ideal S1x256x256 .f32) (v21 : Vec Ideal S1x1x256 .f32) :
    k0_pay2 (F := Ideal) v14 v17 v21 = k0_pay1 (F := Ideal) v14 v17 v21 := rfl

end Cert.KernelIdeal.PayValue
-- ==== Proof.KiValue.lean ====
import proofs.«402202_j11982958756449_2_alg».proof.Proof.KiFrame
import proofs.«402202_j11982958756449_2_alg».proof.Proof.KiIndex
import proofs.«402202_j11982958756449_2_alg».proof.Proof.PayValue
import proofs.«402202_j11982958756449_2_alg».proof.Proof.Spec
import Idealize.ShloMosaic.Lib.Pipeline.Value
import Idealize.ShloMosaic.Lib.ValueIdx

/-
  The kernel program's result array is the shared specification.

  At grid point t the body overwrites the two slabs of the output buffer: slab s at row n, column o gets
      (∑ k, xblk[s, n, k] · wblk_s[0, k, o]) + bblk_s[0, 0, o],
  where xblk is the activations' block (batch entries 2·t and 2·t + 1) and wblk_s, bblk_s are the weight matrix and
  bias row the table selects for batch entry 2·t + s. The table's word for an entry, as a number, is the index word
  read signed and clamped to the rows 0 … 1023, which is the row the specification selects. So point t writes back
  rows 2·t, 2·t + 1 of the specification, and the 128 points cover the 256 batch entries.
-/

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The output window: written back at every point, and its blocks cover the array -/

section Cover

variable {F : FTy → Type} [FloatOps F]
variable (m : (ℓ : Loc nD τ sig) → Buf (Elt F) ℓ) (a : (pcfg0 (F := F)).Adm)

/-- The output window is written back at every point. -/
theorem flush5 : ∀ t : Fin (cfg0 a).N, ((cfg0 a).win 5).flush t = true :=
  (by decide +kernel : ∀ t : Fin grid0.N, Pipeline.Window.flushOf grid0 true cc0_transform_5 t = true)

/-- The output window's block index at point t is (t, 0, 0). -/
theorem index5 (t : Fin (cfg0 a).N) : ((cfg0 a).win 5).index t = ![t.val, 0, 0] := by
  have h : ∀ t : Fin grid0.N, cc0_transform_5 (grid0.coords t) = ![t.val, 0, 0] := by decide +kernel
  exact h t

/-- An index of the output array is in point t's block iff its batch coordinate is 2t or 2t + 1. -/
theorem mem_blk5 (t : Fin (cfg0 a).N) (i : S256x1024x256.Idx) :
    i ∈ (((cfg0 a).win 5).blk t).view.set ↔ ∀ a' : Fin 3, ((cfg0 a).win 5).index t a' * S2x1024x256.size a' ≤ (i a').val
      ∧ (i a').val < ((cfg0 a).win 5).index t a' * S2x1024x256.size a' + S2x1024x256.size a' := by
  have e := View.set_slice_whole (sig := sig) main_v1 (((cfg0 a).win 5).rect t)
  show i ∈ ((View.whole main_v1).slice (((cfg0 a).win 5).rect t)).set ↔ _
  rw [e]
  exact Rect.mem_set_unit

/-- Every index of the output array is in the block of the point that is half its batch coordinate. -/
theorem cover5 (i : S256x1024x256.Idx) :
    ∃ t : Fin (cfg0 a).N, ((cfg0 a).win 5).flush t = true ∧ i ∈ (((cfg0 a).win 5).blk t).view.set := by
  have hi0 : (i 0).val < 256 := (i 0).isLt
  have hi1 : (i 1).val < 1024 := (i 1).isLt
  have hi2 : (i 2).val < 256 := (i 2).isLt
  refine ⟨⟨(i 0).val / 2, by show (i 0).val / 2 < 128; omega⟩, flush5 a _, ?_⟩
  rw [mem_blk5, index5]
  intro a'
  match a' with
  | ⟨0, _⟩ => show (i 0).val / 2 * 2 ≤ (i 0).val ∧ (i 0).val < (i 0).val / 2 * 2 + 2; omega
  | ⟨1, _⟩ => show 0 * 1024 ≤ (i 1).val ∧ (i 1).val < 0 * 1024 + 1024; omega
  | ⟨2, _⟩ => show 0 * 256 ≤ (i 2).val ∧ (i 2).val < 0 * 256 + 256; omega

/-- If every point writes back its block of one array G, the output array ends holding G. -/
theorem final_of_flushed (c : Dev nD) (G : S256x1024x256.Idx → Elt F .f32)
    (hfl : ∀ t : Fin (cfg0 a).N, (dats m a 0 c).flushed 5 t = (((cfg0 a).win 5).blk t).view.read (Elt F) G) :
    ((dats m a 0 c).arrAt 5 (cfg0 a).N : S256x1024x256.Idx → Elt F .f32) = G :=
  (dats m a 0 c).arrAt_eq_of_cover 5 G (fun t _ => hfl t) (cover5 a)

end Cover

/-! ## The body's result at an index, over any blocks -/

/-- The three zero offsets, however spelt. -/
theorem zero3 : (![0, 0, 0] : Fin 3 → Nat) = fun _ => 0 := funext fun a => by fin_cases a <;> rfl

/-- Slab 1 of the body's result at row n, column o: row n of the second activation slab against column o of the
    second weight matrix, plus the second bias row at o. -/
theorem outOf_slab1 (c : Dev nD) (i : grid0.Coords)
    (arg1 : Memref sig .tc .smem S256 .i32) (harg1 : arg1.IsWhole)
    (arg2 : Memref sig .tc .vmem S2x1024x256 .f32) (harg2 : arg2.IsWhole)
    (arg3 : Memref sig .tc .vmem S1x256x256 .f32) (harg3 : arg3.IsWhole)
    (arg4 : Memref sig .tc .vmem S1x256x256 .f32) (harg4 : arg4.IsWhole)
    (arg5 : Memref sig .tc .vmem S1x1x256 .f32) (harg5 : arg5.IsWhole)
    (arg6 : Memref sig .tc .vmem S1x1x256 .f32) (harg6 : arg6.IsWhole)
    (arg7 : Memref sig .tc .vmem S2x1024x256 .f32) (harg7 : arg7.IsWhole)
    (x0 : Vec Ideal S2x1024x256 .f32) (x1 x2 : Vec Ideal S1x256x256 .f32) (x3 x4 : Vec Ideal S1x1x256 .f32) (n : Fin 1024) (o : Fin 256) :
    outOf (F := Ideal) c i arg1 harg1 arg2 harg2 arg3 harg3 arg4 harg4 arg5 harg5 arg6 harg6 arg7 harg7 x0 x1 x2 x3 x4 (ix3 (1 : Fin 2) n o)
      = (∑ k : Fin 256, x0 (ix3 (1 : Fin 2) n k) * x2 (ix3 (0 : Fin 1) k o)) + x4 (ix3 (0 : Fin 1) (0 : Fin 1) o) := by
  unfold outOf
  rw [View.read_writes_eq_canon _ _ _ (cover_out c i arg1 harg1 arg2 harg2 arg3 harg3 arg4 harg4 arg5 harg5 arg6 harg6 arg7 harg7 x0 x1 x2 x3 x4)]
  unfold kernelRun
  dsimp only
  sl_unfold_words
  simp only [View.readAt_eq_ld, Memref.IsWhole.read_unread, View.ld_unit_zero (S := S1x256x256) zero3,
    View.ld_unit_zero (S := S1x1x256) zero3]
  have e : (ix3 (1 : Fin 2) n o : S2x1024x256.Idx)
      = (Rect.unit (s := S2x1024x256) ![1, 0, 0] S1x1024x256.size inb_S2x1024x256_S1x1024x256_1_0_0).emb (ix3 (0 : Fin 1) n o) :=
    funext fun a => Fin.ext (by
      match a with
      | ⟨0, _⟩ => rfl
      | ⟨1, _⟩ => exact (by omega : n.val = 0 + 1 * n.val)
      | ⟨2, _⟩ => exact (by omega : o.val = 0 + 1 * o.val))
  rw [e, View.canon_cons_emb, PayValue.pay2_eq_pay1, PayValue.pay1_apply]
  refine congrArg (· + x4 (ix3 (0 : Fin 1) (0 : Fin 1) o)) (Finset.sum_congr rfl fun k _ => ?_)
  refine congrArg (· * x2 (ix3 (0 : Fin 1) k o)) ?_
  show x0 _ = x0 _
  exact congrArg x0 (funext fun a => Fin.ext (by
    match a with
    | ⟨0, _⟩ => rfl
    | ⟨1, _⟩ => exact (by omega : 0 + 1 * n.val = n.val)
    | ⟨2, _⟩ => exact (by omega : 0 + 1 * k.val = k.val)))

/-- An index of slab 0 is not in slab 1's rectangle. -/
theorem slab0_not_mem (n : Fin 1024) (o : Fin 256) : (ix3 (0 : Fin 2) n o : S2x1024x256.Idx)
    ∉ (Rect.unit (s := S2x1024x256) ![1, 0, 0] S1x1024x256.size inb_S2x1024x256_S1x1024x256_1_0_0).set := by
  rw [Rect.mem_set_unit]
  intro h
  have h0 : 1 ≤ 0 := (h 0).1
  omega

/-- Slab 0 of the body's result at row n, column o: the same with the first slab, the first weight matrix and the
    first bias row. -/
theorem outOf_slab0 (c : Dev nD) (i : grid0.Coords)
    (arg1 : Memref sig .tc .smem S256 .i32) (harg1 : arg1.IsWhole)
    (arg2 : Memref sig .tc .vmem S2x1024x256 .f32) (harg2 : arg2.IsWhole)
    (arg3 : Memref sig .tc .vmem S1x256x256 .f32) (harg3 : arg3.IsWhole)
    (arg4 : Memref sig .tc .vmem S1x256x256 .f32) (harg4 : arg4.IsWhole)
    (arg5 : Memref sig .tc .vmem S1x1x256 .f32) (harg5 : arg5.IsWhole)
    (arg6 : Memref sig .tc .vmem S1x1x256 .f32) (harg6 : arg6.IsWhole)
    (arg7 : Memref sig .tc .vmem S2x1024x256 .f32) (harg7 : arg7.IsWhole)
    (x0 : Vec Ideal S2x1024x256 .f32) (x1 x2 : Vec Ideal S1x256x256 .f32) (x3 x4 : Vec Ideal S1x1x256 .f32) (n : Fin 1024) (o : Fin 256) :
    outOf (F := Ideal) c i arg1 harg1 arg2 harg2 arg3 harg3 arg4 harg4 arg5 harg5 arg6 harg6 arg7 harg7 x0 x1 x2 x3 x4 (ix3 (0 : Fin 2) n o)
      = (∑ k : Fin 256, x0 (ix3 (0 : Fin 2) n k) * x1 (ix3 (0 : Fin 1) k o)) + x3 (ix3 (0 : Fin 1) (0 : Fin 1) o) := by
  unfold outOf
  rw [View.read_writes_eq_canon _ _ _ (cover_out c i arg1 harg1 arg2 harg2 arg3 harg3 arg4 harg4 arg5 harg5 arg6 harg6 arg7 harg7 x0 x1 x2 x3 x4)]
  unfold kernelRun
  dsimp only
  sl_unfold_words
  simp only [View.readAt_eq_ld, Memref.IsWhole.read_unread, View.ld_unit_zero (S := S1x256x256) zero3,
    View.ld_unit_zero (S := S1x1x256) zero3]
  refine (View.canon_cons_of_not_mem _ _ ?_).trans ?_
  · exact slab0_not_mem n o
  have e : (ix3 (0 : Fin 2) n o : S2x1024x256.Idx)
      = (Rect.unit (s := S2x1024x256) ![0, 0, 0] S1x1024x256.size inb_S2x1024x256_S1x1024x256_0_0_0).emb (ix3 (0 : Fin 1) n o) :=
    funext fun a => Fin.ext (by
      match a with
      | ⟨0, _⟩ => rfl
      | ⟨1, _⟩ => exact (by omega : n.val = 0 + 1 * n.val)
      | ⟨2, _⟩ => exact (by omega : o.val = 0 + 1 * o.val))
  rw [e, View.canon_cons_emb, PayValue.pay1_apply]
  refine congrArg (· + x3 (ix3 (0 : Fin 1) (0 : Fin 1) o)) (Finset.sum_congr rfl fun k _ => ?_)
  refine congrArg (· * x1 (ix3 (0 : Fin 1) k o)) ?_
  show x0 _ = x0 _
  exact congrArg x0 (funext fun a => Fin.ext (by
    match a with
    | ⟨0, _⟩ => rfl
    | ⟨1, _⟩ => exact (by omega : 0 + 1 * n.val = n.val)
    | ⟨2, _⟩ => exact (by omega : 0 + 1 * k.val = k.val)))

section AtIdeal

variable (m : (ℓ : Loc nD τ sig) → Buf (Elt Ideal) ℓ) (a : (pcfg0 (F := Ideal)).Adm)

/-! ## The blocks at a point, read off the arrays -/

/-- Each window's block index at a point is its printed index map at the point's coordinate. -/
theorem widx0 (t : Fin (cfg0 a).N) : ((cfg0 a).win 0).index t = cc0_transform_0 (grid0.coords t) := rfl
theorem widx1 (t : Fin (cfg0 a).N) : ((cfg0 a).win 1).index t = cc0_transform_1 k0_off1_inb numel1_S1 a.1 (grid0.coords t) := rfl
theorem widx2 (t : Fin (cfg0 a).N) : ((cfg0 a).win 2).index t = cc0_transform_2 k0_off1_inb numel1_S1 a.1 (grid0.coords t) := rfl
theorem widx3 (t : Fin (cfg0 a).N) : ((cfg0 a).win 3).index t = cc0_transform_3 k0_off1_inb numel1_S1 a.1 (grid0.coords t) := rfl
theorem widx4 (t : Fin (cfg0 a).N) : ((cfg0 a).win 4).index t = cc0_transform_4 k0_off1_inb numel1_S1 a.1 (grid0.coords t) := rfl
theorem widx5 (t : Fin (cfg0 a).N) : ((cfg0 a).win 5).index t = cc0_transform_5 (grid0.coords t) := rfl

/-- The batch entry that slab s of point t's block holds: 2·t + s. -/
def bat (t : Fin (cfg0 a).N) (s : Fin 2) : Fin 256 :=
  ⟨2 * (grid0.coords t 0).val + s.val, by
    have h1 : (grid0.coords t 0).val < 128 := (grid0.coords t 0).isLt
    have h2 := s.isLt
    omega⟩

/-- A word of the table, as a number, is the row the index word selects. -/
theorem word_row (c : Dev nD) (ha : (a.1 0 : S256.Idx → BitVec 32) = fun i => clipWord ((m ((c : Thread nD τ).loc main_arg1)) i)) (i : S256.Idx) :
    ((a.1 0 : S256.Idx → BitVec 32) i).toNat = (Cert.Spec.rowOf ((m ((c : Thread nD τ).loc main_arg1)) i)).val := by
  rw [congrFun ha i]
  exact clipWord_toNat _

/-- The activations' block at point t, slab s, is batch entry 2·t + s of the activations. -/
theorem iblk0_apply (c : Dev nD) (t : Fin (cfg0 a).N) (s : Fin 2) (n : Fin 1024) (k : Fin 256) :
    (iblk m a c 0 t : Vec Ideal S2x1024x256 .f32) (ix3 s n k)
      = ((m ((c : Thread nD τ).loc main_arg0)) : S256x1024x256.Idx → EReal) (ix3 (bat a t s) n k) := by
  unfold iblk
  show V m c main_arg0 ((((cfg0 a).win 0).blk t).view.emb (ix3 s n k)) = _
  rw [V_main_arg0]
  refine congrArg _ (funext fun b => Fin.ext ?_)
  match b with
  | ⟨0, _⟩ =>
    show ((cfg0 a).win 0).index t (0 : Fin 3) * 2 + 1 * s.val = 2 * (grid0.coords t 0).val + s.val
    rw [widx0, transform0_eq]
    show (grid0.coords t 0).val * 2 + 1 * s.val = _
    omega
  | ⟨1, _⟩ =>
    show ((cfg0 a).win 0).index t (1 : Fin 3) * 1024 + 1 * n.val = n.val
    rw [widx0, transform0_eq]
    show 0 * 1024 + 1 * n.val = _
    omega
  | ⟨2, _⟩ =>
    show ((cfg0 a).win 0).index t (2 : Fin 3) * 256 + 1 * k.val = k.val
    rw [widx0, transform0_eq]
    show 0 * 256 + 1 * k.val = _
    omega

theorem iblk1_apply (c : Dev nD) (ha : (a.1 0 : S256.Idx → BitVec 32) = fun i => clipWord ((m ((c : Thread nD τ).loc main_arg1)) i))
    (t : Fin (cfg0 a).N) (k o : Fin 256) :
    (iblk m a c 1 t : Vec Ideal S1x256x256 .f32) (ix3 (0 : Fin 1) k o)
      = ((m ((c : Thread nD τ).loc main_arg2)) : S1024x256x256.Idx → EReal) (ix3 (Cert.Spec.row (m ((c : Thread nD τ).loc main_arg1)) (bat a t 0)) k o) := by
  unfold iblk
  show V m c main_arg2 ((((cfg0 a).win 1).blk t).view.emb (ix3 (0 : Fin 1) k o)) = _
  rw [V_main_arg2]
  refine congrArg _ (funext fun b => Fin.ext ?_)
  match b with
  | ⟨0, _⟩ =>
    show ((cfg0 a).win 1).index t (0 : Fin 3) * 1 + 1 * 0 = (Cert.Spec.row (m ((c : Thread nD τ).loc main_arg1)) (bat a t 0)).val
    rw [widx1, transform1_eq]
    show ((a.1 0 : S256.Idx → BitVec 32) _).toNat * 1 + 1 * 0 = _
    rw [Nat.mul_one, Nat.mul_zero, Nat.add_zero]
    exact word_row m a c ha _
  | ⟨1, _⟩ =>
    show ((cfg0 a).win 1).index t (1 : Fin 3) * 256 + 1 * k.val = k.val
    rw [widx1, transform1_eq]
    show 0 * 256 + 1 * k.val = _
    omega
  | ⟨2, _⟩ =>
    show ((cfg0 a).win 1).index t (2 : Fin 3) * 256 + 1 * o.val = o.val
    rw [widx1, transform1_eq]
    show 0 * 256 + 1 * o.val = _
    omega

theorem iblk2_apply (c : Dev nD) (ha : (a.1 0 : S256.Idx → BitVec 32) = fun i => clipWord ((m ((c : Thread nD τ).loc main_arg1)) i))
    (t : Fin (cfg0 a).N) (k o : Fin 256) :
    (iblk m a c 2 t : Vec Ideal S1x256x256 .f32) (ix3 (0 : Fin 1) k o)
      = ((m ((c : Thread nD τ).loc main_arg2)) : S1024x256x256.Idx → EReal) (ix3 (Cert.Spec.row (m ((c : Thread nD τ).loc main_arg1)) (bat a t 1)) k o) := by
  unfold iblk
  show V m c main_arg2 ((((cfg0 a).win 2).blk t).view.emb (ix3 (0 : Fin 1) k o)) = _
  rw [V_main_arg2]
  refine congrArg _ (funext fun b => Fin.ext ?_)
  match b with
  | ⟨0, _⟩ =>
    show ((cfg0 a).win 2).index t (0 : Fin 3) * 1 + 1 * 0 = (Cert.Spec.row (m ((c : Thread nD τ).loc main_arg1)) (bat a t 1)).val
    rw [widx2, transform2_eq]
    show ((a.1 0 : S256.Idx → BitVec 32) _).toNat * 1 + 1 * 0 = _
    rw [Nat.mul_one, Nat.mul_zero, Nat.add_zero]
    exact word_row m a c ha _
  | ⟨1, _⟩ =>
    show ((cfg0 a).win 2).index t (1 : Fin 3) * 256 + 1 * k.val = k.val
    rw [widx2, transform2_eq]
    show 0 * 256 + 1 * k.val = _
    omega
  | ⟨2, _⟩ =>
    show ((cfg0 a).win 2).index t (2 : Fin 3) * 256 + 1 * o.val = o.val
    rw [widx2, transform2_eq]
    show 0 * 256 + 1 * o.val = _
    omega

theorem iblk3_apply (c : Dev nD) (ha : (a.1 0 : S256.Idx → BitVec 32) = fun i => clipWord ((m ((c : Thread nD τ).loc main_arg1)) i))
    (t : Fin (cfg0 a).N) (o : Fin 256) :
    (iblk m a c 3 t : Vec Ideal S1x1x256 .f32) (ix3 (0 : Fin 1) (0 : Fin 1) o)
      = ((m ((c : Thread nD τ).loc main_arg3)) : S1024x1x256.Idx → EReal) (ix3 (Cert.Spec.row (m ((c : Thread nD τ).loc main_arg1)) (bat a t 0)) (0 : Fin 1) o) := by
  unfold iblk
  show V m c main_arg3 ((((cfg0 a).win 3).blk t).view.emb (ix3 (0 : Fin 1) (0 : Fin 1) o)) = _
  rw [V_main_arg3]
  refine congrArg _ (funext fun b => Fin.ext ?_)
  match b with
  | ⟨0, _⟩ =>
    show ((cfg0 a).win 3).index t (0 : Fin 3) * 1 + 1 * 0 = (Cert.Spec.row (m ((c : Thread nD τ).loc main_arg1)) (bat a t 0)).val
    rw [widx3, transform3_eq]
    show ((a.1 0 : S256.Idx → BitVec 32) _).toNat * 1 + 1 * 0 = _
    rw [Nat.mul_one, Nat.mul_zero, Nat.add_zero]
    exact word_row m a c ha _
  | ⟨1, _⟩ =>
    show ((cfg0 a).win 3).index t (1 : Fin 3) * 1 + 1 * 0 = 0
    rw [widx3, transform3_eq]
    show 0 * 1 + 1 * 0 = _
    omega
  | ⟨2, _⟩ =>
    show ((cfg0 a).win 3).index t (2 : Fin 3) * 256 + 1 * o.val = o.val
    rw [widx3, transform3_eq]
    show 0 * 256 + 1 * o.val = _
    omega

theorem iblk4_apply (c : Dev nD) (ha : (a.1 0 : S256.Idx → BitVec 32) = fun i => clipWord ((m ((c : Thread nD τ).loc main_arg1)) i))
    (t : Fin (cfg0 a).N) (o : Fin 256) :
    (iblk m a c 4 t : Vec Ideal S1x1x256 .f32) (ix3 (0 : Fin 1) (0 : Fin 1) o)
      = ((m ((c : Thread nD τ).loc main_arg3)) : S1024x1x256.Idx → EReal) (ix3 (Cert.Spec.row (m ((c : Thread nD τ).loc main_arg1)) (bat a t 1)) (0 : Fin 1) o) := by
  unfold iblk
  show V m c main_arg3 ((((cfg0 a).win 4).blk t).view.emb (ix3 (0 : Fin 1) (0 : Fin 1) o)) = _
  rw [V_main_arg3]
  refine congrArg _ (funext fun b => Fin.ext ?_)
  match b with
  | ⟨0, _⟩ =>
    show ((cfg0 a).win 4).index t (0 : Fin 3) * 1 + 1 * 0 = (Cert.Spec.row (m ((c : Thread nD τ).loc main_arg1)) (bat a t 1)).val
    rw [widx4, transform4_eq]
    show ((a.1 0 : S256.Idx → BitVec 32) _).toNat * 1 + 1 * 0 = _
    rw [Nat.mul_one, Nat.mul_zero, Nat.add_zero]
    exact word_row m a c ha _
  | ⟨1, _⟩ =>
    show ((cfg0 a).win 4).index t (1 : Fin 3) * 1 + 1 * 0 = 0
    rw [widx4, transform4_eq]
    show 0 * 1 + 1 * 0 = _
    omega
  | ⟨2, _⟩ =>
    show ((cfg0 a).win 4).index t (2 : Fin 3) * 256 + 1 * o.val = o.val
    rw [widx4, transform4_eq]
    show 0 * 256 + 1 * o.val = _
    omega

/-! ## What each point writes back -/

/-- What the output buffer holds after the body at point t, at slab s, row n, column o: the specification's
    entry for batch entry 2·t + s. -/
theorem outAt_apply (c : Dev nD) (ha : (a.1 0 : S256.Idx → BitVec 32) = fun i => clipWord ((m ((c : Thread nD τ).loc main_arg1)) i))
    (t : Fin (cfg0 a).N) (s : Fin 2) (n : Fin 1024) (o : Fin 256) :
    outAt m a c t (ix3 s n o) = Cert.Spec.at3 (m ((c : Thread nD τ).loc main_arg0)) (m ((c : Thread nD τ).loc main_arg1)) (m ((c : Thread nD τ).loc main_arg2)) (m ((c : Thread nD τ).loc main_arg3)) (bat a t s) n o := by
  unfold outAt
  match s with
  | ⟨0, _⟩ =>
    show outOf c (grid0.coords t) (Memref.whole main_v0) (Memref.isWhole_whole _) (ms0 a t) (hs0 a t) (ms1 a t) (hs1 a t)
      (ms2 a t) (hs2 a t) (ms3 a t) (hs3 a t) (ms4 a t) (hs4 a t) (ms5 a t) (hs5 a t)
      (iblk m a c 0 t) (iblk m a c 1 t) (iblk m a c 2 t) (iblk m a c 3 t) (iblk m a c 4 t) (ix3 (0 : Fin 2) n o) = Cert.Spec.at3 (m ((c : Thread nD τ).loc main_arg0)) (m ((c : Thread nD τ).loc main_arg1)) (m ((c : Thread nD τ).loc main_arg2)) (m ((c : Thread nD τ).loc main_arg3)) (bat a t (0 : Fin 2)) n o
    refine (outOf_slab0 c (grid0.coords t) (Memref.whole main_v0) (Memref.isWhole_whole _) (ms0 a t) (hs0 a t) (ms1 a t) (hs1 a t)
      (ms2 a t) (hs2 a t) (ms3 a t) (hs3 a t) (ms4 a t) (hs4 a t) (ms5 a t) (hs5 a t)
      (iblk m a c 0 t) (iblk m a c 1 t) (iblk m a c 2 t) (iblk m a c 3 t) (iblk m a c 4 t) n o).trans ?_
    unfold Cert.Spec.at3
    exact congrArg₂ (· + ·) (Finset.sum_congr rfl fun k _ =>
      congrArg₂ (· * ·) (iblk0_apply m a c t (0 : Fin 2) n k) (iblk1_apply m a c ha t k o)) (iblk3_apply m a c ha t o)
  | ⟨1, _⟩ =>
    show outOf c (grid0.coords t) (Memref.whole main_v0) (Memref.isWhole_whole _) (ms0 a t) (hs0 a t) (ms1 a t) (hs1 a t)
      (ms2 a t) (hs2 a t) (ms3 a t) (hs3 a t) (ms4 a t) (hs4 a t) (ms5 a t) (hs5 a t)
      (iblk m a c 0 t) (iblk m a c 1 t) (iblk m a c 2 t) (iblk m a c 3 t) (iblk m a c 4 t) (ix3 (1 : Fin 2) n o) = Cert.Spec.at3 (m ((c : Thread nD τ).loc main_arg0)) (m ((c : Thread nD τ).loc main_arg1)) (m ((c : Thread nD τ).loc main_arg2)) (m ((c : Thread nD τ).loc main_arg3)) (bat a t (1 : Fin 2)) n o
    refine (outOf_slab1 c (grid0.coords t) (Memref.whole main_v0) (Memref.isWhole_whole _) (ms0 a t) (hs0 a t) (ms1 a t) (hs1 a t)
      (ms2 a t) (hs2 a t) (ms3 a t) (hs3 a t) (ms4 a t) (hs4 a t) (ms5 a t) (hs5 a t)
      (iblk m a c 0 t) (iblk m a c 1 t) (iblk m a c 2 t) (iblk m a c 3 t) (iblk m a c 4 t) n o).trans ?_
    unfold Cert.Spec.at3
    exact congrArg₂ (· + ·) (Finset.sum_congr rfl fun k _ =>
      congrArg₂ (· * ·) (iblk0_apply m a c t (1 : Fin 2) n k) (iblk2_apply m a c ha t k o)) (iblk4_apply m a c ha t o)

/-- Where slab s, row n, column o of point t's output block sits in the result array: batch entry 2·t + s. -/
theorem out_emb (t : Fin (cfg0 a).N) (s : Fin 2) (n : Fin 1024) (o : Fin 256) :
    (((cfg0 a).win 5).blk t).view.emb (ix3 s n o) = (ix3 (bat a t s) n o : S256x1024x256.Idx) :=
  funext fun b => Fin.ext (by
    match b with
    | ⟨0, _⟩ =>
      show ((cfg0 a).win 5).index t (0 : Fin 3) * 2 + 1 * s.val = 2 * (grid0.coords t 0).val + s.val
      rw [widx5, transform5_eq]
      show (grid0.coords t 0).val * 2 + 1 * s.val = _
      omega
    | ⟨1, _⟩ =>
      show ((cfg0 a).win 5).index t (1 : Fin 3) * 1024 + 1 * n.val = n.val
      rw [widx5, transform5_eq]
      show 0 * 1024 + 1 * n.val = _
      omega
    | ⟨2, _⟩ =>
      show ((cfg0 a).win 5).index t (2 : Fin 3) * 256 + 1 * o.val = o.val
      rw [widx5, transform5_eq]
      show 0 * 256 + 1 * o.val = _
      omega)

/-- What point t writes back is its block of the specification. -/
theorem flushed_eq (c : Dev nD) (ha : (a.1 0 : S256.Idx → BitVec 32) = fun i => clipWord ((m ((c : Thread nD τ).loc main_arg1)) i)) (t : Fin (cfg0 a).N) :
    (dats m a 0 c).flushed 5 t = (((cfg0 a).win 5).blk t).view.read (Elt Ideal) (Cert.Spec.G (m ((c : Thread nD τ).loc main_arg0)) (m ((c : Thread nD τ).loc main_arg1)) (m ((c : Thread nD τ).loc main_arg2)) (m ((c : Thread nD τ).loc main_arg3))) := by
  show ((cfg0 a).win 5).cut ((cfg0 a).grid.coords t) ((dats m a 0 c).after 5 t) = _
  rw [after5]
  have key : ∀ j : S2x1024x256.Idx, outAt m a c t j = (Cert.Spec.G (m ((c : Thread nD τ).loc main_arg0)) (m ((c : Thread nD τ).loc main_arg1)) (m ((c : Thread nD τ).loc main_arg2)) (m ((c : Thread nD τ).loc main_arg3))) ((((cfg0 a).win 5).blk t).view.emb j) := by
    intro j
    obtain ⟨s, n, o, rfl⟩ : ∃ (s : Fin 2) (n : Fin 1024) (o : Fin 256), j = ix3 s n o := ⟨j 0, j 1, j 2, eq_ix3 j⟩
    rw [out_emb, Cert.Spec.G_ix3]
    exact outAt_apply m a c ha t s n o
  funext j
  exact key j

/-! ## The result array -/

/-- The output array after the run is the specification, whenever the table is the index vector clipped word by
    word. -/
theorem final (c : Dev nD) (ha : (a.1 0 : S256.Idx → BitVec 32) = fun i => clipWord ((m ((c : Thread nD τ).loc main_arg1)) i)) :
    ((dats m a 0 c).arrAt 5 (cfg0 a).N : S256x1024x256.Idx → EReal) = (Cert.Spec.G (m ((c : Thread nD τ).loc main_arg0)) (m ((c : Thread nD τ).loc main_arg1)) (m ((c : Thread nD τ).loc main_arg2)) (m ((c : Thread nD τ).loc main_arg3))) :=
  final_of_flushed m a c (Cert.Spec.G (m ((c : Thread nD τ).loc main_arg0)) (m ((c : Thread nD τ).loc main_arg1)) (m ((c : Thread nD τ).loc main_arg2)) (m ((c : Thread nD τ).loc main_arg3))) (fun t => flushed_eq m a c ha t)

end AtIdeal

end Cert.KernelIdeal.Hand

end
-- ==== Proof.lean ====
/-
  The certificate's claim: the three frames, the (empty) idealization ledger, and the equivalence of the kernel
  program and the reference over the extended reals under the precondition that the float inputs are finite and
  the index words are non-negative.
-/
import proofs.«402202_j11982958756449_2_alg».proof.Defs
import proofs.«402202_j11982958756449_2_alg».proof.Proof.Gen.Kernel
import proofs.«402202_j11982958756449_2_alg».proof.Proof.Gen.Kernel.Skeleton
import proofs.«402202_j11982958756449_2_alg».proof.Proof.Gen.Kernel.Launch
import proofs.«402202_j11982958756449_2_alg».proof.Proof.Gen.Kernel.Flash
import proofs.«402202_j11982958756449_2_alg».proof.Proof.Gen.KernelIdeal
import proofs.«402202_j11982958756449_2_alg».proof.Proof.Gen.KernelIdeal.Skeleton
import proofs.«402202_j11982958756449_2_alg».proof.Proof.Gen.KernelIdeal.Launch
import proofs.«402202_j11982958756449_2_alg».proof.Proof.Gen.KernelIdeal.Flash
import proofs.«402202_j11982958756449_2_alg».proof.Proof.Gen.ReferenceIdeal
import proofs.«402202_j11982958756449_2_alg».proof.Proof.Gen.ReferenceIdeal.Run
import proofs.«402202_j11982958756449_2_alg».proof.Proof.Gen.ReferenceIdeal.Read
import proofs.«402202_j11982958756449_2_alg».proof.Proof.Gen.Pre_finite_inputs
import proofs.«402202_j11982958756449_2_alg».proof.Proof.Claims
import proofs.«402202_j11982958756449_2_alg».proof.Proof.KiValue
import Idealize.ShloMosaic.Adequacy
import Idealize.ShloMosaic.Init

noncomputable section

namespace Cert.Proof

open Idealize.ShloMosaic Idealize.ShloMosaic.TcCoe Idealize.SL.Sem

open Cert.KernelIdeal Cert.KernelIdeal.Hand in
/-- The table the launch prefetches is the index vector clipped word by word (on the one device). -/
theorem adm_tbl (m : (ℓ : Loc Cert.KernelIdeal.nD Cert.KernelIdeal.τ Cert.KernelIdeal.sig) → Buf (Elt Ideal) ℓ) (c : Dev Cert.KernelIdeal.nD) :
    ((adm m).1 0 : Cert.KernelIdeal.S256.Idx → BitVec 32) = fun i => clipWord (m ((c : Thread nD τ).loc main_arg1) i) := by
  obtain rfl : c = 0 := Subsingleton.elim _ _
  exact V_main_v0 m 0

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves,
    Claims.algebraic_of_final fun m c => Cert.KernelIdeal.Hand.final m (Cert.KernelIdeal.Hand.adm m) c (adm_tbl m c)⟩

end Cert.Proof

end
